-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x768 : Shape := ⟨3, ![64, 32, 768]⟩
abbrev S64x512x768 : Shape := ⟨3, ![64, 512, 768]⟩
abbrev S128x768 : Shape := ⟨2, ![128, 768]⟩
abbrev S_ : Shape := ⟨0, ![]⟩

class Facts : Prop where
  bcast_S_S64x32x768 : S_.BroadcastsInDim S64x32x768 (![] : Fin 0 → Fin S64x32x768.rank)
  reducesTo_S64x32x768_S_d0_1_2 : S64x32x768.ReducesTo [0, 1, 2] S_
  h_S_ : 0 < S_.numel
  bcast_S_S64x512x768 : S_.BroadcastsInDim S64x512x768 (![] : Fin 0 → Fin S64x512x768.rank)
  reducesTo_S64x512x768_S_d0_1_2 : S64x512x768.ReducesTo [0, 1, 2] S_
  bcast_S_S128x768 : S_.BroadcastsInDim S128x768 (![] : Fin 0 → Fin S128x768.rank)
  reducesTo_S128x768_S_d0_1 : S128x768.ReducesTo [0, 1] S_

variable [Facts]

def fn {F : FTy → Type} [FloatOps F] (main_arg0 : FVec F S64x32x768 .f32) (main_arg1 : FVec F S64x512x768 .f32) (main_arg2 : FVec F S128x768 .f32) : IVec S_ 1 :=
  let main_v0 : FVec F S64x32x768 .f32 := Host.absf main_arg0
  let main_cst : FVec F S_ .f32 := constant S_ .f32 0x7F800000#32
  let main_v1 : FVec F S64x32x768 .f32 := broadcastInDim S64x32x768 ![] bcast_S_S64x32x768 main_cst
  let main_v2 : IVec S64x32x768 1 := cmpf .olt main_v0 main_v1
  let main_c : IVec S_ 1 := constantI S_ 1 1#1
  let main_v3 : IVec S_ 1 := (fun x v => Host.reduce IntOp.andi x v reducesTo_S64x32x768_S_d0_1_2 h_S_) main_v2 main_c
  let main_v4 : FVec F S64x512x768 .f32 := Host.absf main_arg1
  let main_cst_0 : FVec F S_ .f32 := constant S_ .f32 0x7F800000#32
  let main_v5 : FVec F S64x512x768 .f32 := broadcastInDim S64x512x768 ![] bcast_S_S64x512x768 main_cst_0
  let main_v6 : IVec S64x512x768 1 := cmpf .olt main_v4 main_v5
  let main_c_1 : IVec S_ 1 := constantI S_ 1 1#1
  let main_v7 : IVec S_ 1 := (fun x v => Host.reduce IntOp.andi x v reducesTo_S64x512x768_S_d0_1_2 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  main_v13
-- ==== Kernel.lean ====
abbrev S64x32x768 : Shape := ⟨3, ![64, 32, 768]⟩
abbrev S64x512x768 : Shape := ⟨3, ![64, 512, 768]⟩
abbrev S128x768 : Shape := ⟨2, ![128, 768]⟩
abbrev S2048x768 : Shape := ⟨2, ![2048, 768]⟩
abbrev S32768x768 : Shape := ⟨2, ![32768, 768]⟩
abbrev S2048x128 : Shape := ⟨2, ![2048, 128]⟩
abbrev S2048 : Shape := ⟨1, ![2048]⟩
abbrev S2048x1 : Shape := ⟨2, ![2048, 1]⟩
abbrev S32768x128 : Shape := ⟨2, ![32768, 128]⟩
abbrev S64x512x128 : Shape := ⟨3, ![64, 512, 128]⟩
abbrev S64x64 : Shape := ⟨2, ![64, 64]⟩
abbrev S8x512x128 : Shape := ⟨3, ![8, 512, 128]⟩
abbrev S8x64 : Shape := ⟨2, ![8, 64]⟩
abbrev S1x512x128 : Shape := ⟨3, ![1, 512, 128]⟩
abbrev S512x128 : Shape := ⟨2, ![512, 128]⟩
abbrev S2048x512 : Shape := ⟨2, ![2048, 512]⟩
abbrev S64x32x512 : Shape := ⟨3, ![64, 32, 512]⟩
abbrev S64x32 : Shape := ⟨2, ![64, 32]⟩
abbrev S64 : Shape := ⟨1, ![64]⟩
abbrev S1x64 : Shape := ⟨2, ![1, 64]⟩

abbrev nBuf : Space → Nat
  | .hbm => 10
  | .vmem => 13
  | .smem => 0
  | _ => 0

abbrev bufTy : (tb : Table) → Fin (tcTables nBuf tb) → BufTy
  | .hbm, ⟨0, _⟩ => ⟨S64x32x768, .f32⟩
  | .hbm, ⟨1, _⟩ => ⟨S64x512x768, .f32⟩
  | .hbm, ⟨2, _⟩ => ⟨S128x768, .f32⟩
  | .hbm, ⟨3, _⟩ => ⟨S2048x768, .f32⟩
  | .hbm, ⟨4, _⟩ => ⟨S32768x768, .f32⟩
  | .hbm, ⟨5, _⟩ => ⟨S2048x128, .bf16⟩
  | .hbm, ⟨6, _⟩ => ⟨S32768x128, .bf16⟩
  | .hbm, ⟨7, _⟩ => ⟨S64x512x128, .bf16⟩
  | .hbm, ⟨8, _⟩ => ⟨S64x64, .f32⟩
  | .hbm, ⟨9, _⟩ => ⟨S64x64, .f32⟩
  | .local _ .vmem, ⟨0, _⟩ => ⟨S2048x768, .f32⟩
  | .local _ .vmem, ⟨1, _⟩ => ⟨S128x768, .f32⟩
  | .local _ .vmem, ⟨2, _⟩ => ⟨S2048x128, .bf16⟩
  | .local _ .vmem, ⟨3, _⟩ => ⟨S2048x768, .f32⟩
  | .local _ .vmem, ⟨4, _⟩ => ⟨S2048x768, .f32⟩
  | .local _ .vmem, ⟨5, _⟩ => ⟨S128x768, .f32⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S8x512x128, .bf16⟩
  | .local _ .vmem, ⟨10, _⟩ => ⟨S8x512x128, .bf16⟩
  | .local _ .vmem, ⟨11, _⟩ => ⟨S8x64, .f32⟩
  | .local _ .vmem, ⟨12, _⟩ => ⟨S8x64, .f32⟩
  | _, _ => ⟨S64x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2048x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S8x512x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S64x32x768_S2048x768 : S64x32x768.ShapeCasts S2048x768
  shapeCasts_S64x512x768_S32768x768 : S64x512x768.ShapeCasts S32768x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  reduces_S2048x128_S2048 : S2048x128.Reduces [1] S2048
  shapeCasts_S2048_S2048x1 : S2048.ShapeCasts S2048x1
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  shapeCasts_S32768x128_S64x512x128 : S32768x128.ShapeCasts S64x512x128
  inb_S8x512x128_S1x512x128_0_0_0 : ∀ a, (![0, 0, 0] : Fin 3 → Nat) a + S1x512x128.size a ≤ S8x512x128.size a
  h_S1x512x128 : 0 < S1x512x128.numel
  shapeCasts_S1x512x128_S512x128 : S1x512x128.ShapeCasts S512x128
  shapeCasts_S2048x128_S2048x128 : S2048x128.ShapeCasts S2048x128
  shapeCasts_S2048x512_S64x32x512 : S2048x512.ShapeCasts S64x32x512
  reduces_S64x32x512_S64x32 : S64x32x512.Reduces [2] S64x32
  reduces_S64x32_S64 : S64x32.Reduces [1] S64
  inb_S8x64_S1x64_0_0 : ∀ a, (![0, 0] : Fin 2 → Nat) a + S1x64.size a ≤ S8x64.size a
  h_S1x64 : 0 < S1x64.numel
  shapeCasts_S1x64_S64 : S1x64.ShapeCasts S64
  shapeCasts_S64_S1x64 : S64.ShapeCasts S1x64
  inb_S8x512x128_S1x512x128_1_0_0 : ∀ a, (![1, 0, 0] : Fin 3 → Nat) a + S1x512x128.size a ≤ S8x512x128.size a
  inb_S8x64_S1x64_1_0 : ∀ a, (![1, 0] : Fin 2 → Nat) a + S1x64.size a ≤ S8x64.size a
  inb_S8x512x128_S1x512x128_2_0_0 : ∀ a, (![2, 0, 0] : Fin 3 → Nat) a + S1x512x128.size a ≤ S8x512x128.size a
  inb_S8x64_S1x64_2_0 : ∀ a, (![2, 0] : Fin 2 → Nat) a + S1x64.size a ≤ S8x64.size a
  inb_S8x512x128_S1x512x128_3_0_0 : ∀ a, (![3, 0, 0] : Fin 3 → Nat) a + S1x512x128.size a ≤ S8x512x128.size a
  inb_S8x64_S1x64_3_0 : ∀ a, (![3, 0] : Fin 2 → Nat) a + S1x64.size a ≤ S8x64.size a
  inb_S8x512x128_S1x512x128_4_0_0 : ∀ a, (![4, 0, 0] : Fin 3 → Nat) a + S1x512x128.size a ≤ S8x512x128.size a
  inb_S8x64_S1x64_4_0 : ∀ a, (![4, 0] : Fin 2 → Nat) a + S1x64.size a ≤ S8x64.size a
  inb_S8x512x128_S1x512x128_5_0_0 : ∀ a, (![5, 0, 0] : Fin 3 → Nat) a + S1x512x128.size a ≤ S8x512x128.size a
  inb_S8x64_S1x64_5_0 : ∀ a, (![5, 0] : Fin 2 → Nat) a + S1x64.size a ≤ S8x64.size a
  inb_S8x512x128_S1x512x128_6_0_0 : ∀ a, (![6, 0, 0] : Fin 3 → Nat) a + S1x512x128.size a ≤ S8x512x128.size a
  inb_S8x64_S1x64_6_0 : ∀ a, (![6, 0] : Fin 2 → Nat) a + S1x64.size a ≤ S8x64.size a
  inb_S8x512x128_S1x512x128_7_0_0 : ∀ a, (![7, 0, 0] : Fin 3 → Nat) a + S1x512x128.size a ≤ S8x512x128.size a
  inb_S8x64_S1x64_7_0 : ∀ a, (![7, 0] : Fin 2 → Nat) a + S1x64.size a ≤ S8x64.size a
  transposes_S64x64_S64x64_1_0 : S64x64.Transposes [1, 0] S64x64
  dot_S2048x768_S128x768_S2048x128_1_1_0_0_n_n_wf : DotDims.WF S2048x768 S128x768 S2048x128 [1] [1] [0] [0] [] []
  dot_S2048x128_S512x128_S2048x512_1_1_0_0_n_n_wf : DotDims.WF S2048x128 S512x128 S2048x512 [1] [1] [0] [0] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S2048x768.size a
  hwx0_0 : ∀ i : grid0.Coords, EltTy.bits .f32 = 32 ∨ (Rect.block (s := S2048x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .f32 = 32 ∨ (Rect.block (s := S128x768) S128x768.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .bf16 = 32 ∨ (Rect.block (s := S2048x128) S2048x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x768.size a ≤ S32768x768.size a
  hwx1_0 : ∀ i : grid1.Coords, EltTy.bits .f32 = 32 ∨ (Rect.block (s := S32768x768) S2048x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x768.size a ≤ S128x768.size a
  hwx1_1 : ∀ i : grid1.Coords, EltTy.bits .f32 = 32 ∨ (Rect.block (s := S128x768) S128x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S32768x128.size a
  hwx1_2 : ∀ i : grid1.Coords, EltTy.bits .bf16 = 32 ∨ (Rect.block (s := S32768x128) S2048x128.size (cc1_transform_2 i) (hinb1_2 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S2048x128.size a
  hwx2_0 : ∀ i : grid2.Coords, EltTy.bits .bf16 = 32 ∨ (Rect.block (s := S2048x128) S2048x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x512x128.size a ≤ S64x512x128.size a
  hwx2_1 : ∀ i : grid2.Coords, EltTy.bits .bf16 = 32 ∨ (Rect.block (s := S64x512x128) S8x512x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x64.size a ≤ S64x64.size a
  hwx2_2 : ∀ i : grid2.Coords, EltTy.bits .f32 = 32 ∨ (Rect.block (s := S64x64) S8x64.size (cc2_transform_2 i) (hinb2_2 i)).WholeWords (EltTy.packing .f32)

variable [Facts₀]

def dot_S2048x768_S128x768_S2048x128_1_1_0_0_n_n : DotDims S2048x768 S128x768 S2048x128 where
  lhsContracting := [1]
  rhsContracting := [1]
  lhsNonContracting := [0]
  rhsNonContracting := [0]
  lhsBatch := []
  rhsBatch := []
  wf := dot_S2048x768_S128x768_S2048x128_1_1_0_0_n_n_wf
def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf

abbrev win0_0 : Pipeline.Window sig grid0 :=
  Pipeline.Window.ofSpec (Memref.whole main_v0) S2048x768.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2048x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S2048x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8x512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S8x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S64x32x768 : Shape := ⟨3, ![64, 32, 768]⟩
abbrev S64x512x768 : Shape := ⟨3, ![64, 512, 768]⟩
abbrev S128x768 : Shape := ⟨2, ![128, 768]⟩
abbrev S64x32x128 : Shape := ⟨3, ![64, 32, 128]⟩
abbrev S_ : Shape := ⟨0, ![]⟩
abbrev S64x32 : Shape := ⟨2, ![64, 32]⟩
abbrev S64x32x1 : Shape := ⟨3, ![64, 32, 1]⟩
abbrev S64x512x128 : Shape := ⟨3, ![64, 512, 128]⟩
abbrev S64x512 : Shape := ⟨2, ![64, 512]⟩
abbrev S64x512x1 : Shape := ⟨3, ![64, 512, 1]⟩
abbrev S64x512x64x32 : Shape := ⟨4, ![64, 512, 64, 32]⟩
abbrev S64x64x32x512 : Shape := ⟨4, ![64, 64, 32, 512]⟩
abbrev S64x64x32 : Shape := ⟨3, ![64, 64, 32]⟩
abbrev S64x64 : Shape := ⟨2, ![64, 64]⟩

abbrev nBuf : Space → Nat
  | .hbm => 31
  | .vmem => 0
  | .smem => 0
  | _ => 0

abbrev bufTy : (tb : Table) → Fin (tcTables nBuf tb) → BufTy
  | .hbm, ⟨0, _⟩ => ⟨S64x32x768, .f32⟩
  | .hbm, ⟨1, _⟩ => ⟨S64x512x768, .f32⟩
  | .hbm, ⟨2, _⟩ => ⟨S128x768, .f32⟩
  | .hbm, ⟨3, _⟩ => ⟨S64x32x128, .f32⟩
  | .hbm, ⟨4, _⟩ => ⟨S64x32x128, .f32⟩
  | .hbm, ⟨5, _⟩ => ⟨S_, .f32⟩
  | .hbm, ⟨6, _⟩ => ⟨S64x32, .f32⟩
  | .hbm, ⟨7, _⟩ => ⟨S64x32x1, .f32⟩
  | .hbm, ⟨8, _⟩ => ⟨S64x32x1, .f32⟩
  | .hbm, ⟨9, _⟩ => ⟨S_, .f32⟩
  | .hbm, ⟨10, _⟩ => ⟨S64x32x1, .f32⟩
  | .hbm, ⟨11, _⟩ => ⟨S64x32x1, .f32⟩
  | .hbm, ⟨12, _⟩ => ⟨S64x32x128, .f32⟩
  | .hbm, ⟨13, _⟩ => ⟨S64x32x128, .f32⟩
  | .hbm, ⟨14, _⟩ => ⟨S64x512x128, .f32⟩
  | .hbm, ⟨15, _⟩ => ⟨S64x512x128, .f32⟩
  | .hbm, ⟨16, _⟩ => ⟨S_, .f32⟩
  | .hbm, ⟨17, _⟩ => ⟨S64x512, .f32⟩
  | .hbm, ⟨18, _⟩ => ⟨S64x512x1, .f32⟩
  | .hbm, ⟨19, _⟩ => ⟨S64x512x1, .f32⟩
  | .hbm, ⟨20, _⟩ => ⟨S_, .f32⟩
  | .hbm, ⟨21, _⟩ => ⟨S64x512x1, .f32⟩
  | .hbm, ⟨22, _⟩ => ⟨S64x512x1, .f32⟩
  | .hbm, ⟨23, _⟩ => ⟨S64x512x128, .f32⟩
  | .hbm, ⟨24, _⟩ => ⟨S64x512x128, .f32⟩
  | .hbm, ⟨25, _⟩ => ⟨S64x512x64x32, .f32⟩
  | .hbm, ⟨26, _⟩ => ⟨S64x64x32x512, .f32⟩
  | .hbm, ⟨27, _⟩ => ⟨S_, .f32⟩
  | .hbm, ⟨28, _⟩ => ⟨S64x64x32, .f32⟩
  | .hbm, ⟨29, _⟩ => ⟨S_, .f32⟩
  | .hbm, ⟨30, _⟩ => ⟨S64x64, .f32⟩
  | _, _ => ⟨S64x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S64x32x128_S64x32_d2 : S64x32x128.ReducesTo [2] S64x32
  h_S_ : 0 < S_.numel
  bcast_S64x32_S64x32x1_0_1 : S64x32.BroadcastsInDim S64x32x1 (![0, 1] : Fin 2 → Fin S64x32x1.rank)
  bcast_S_S64x32x1 : S_.BroadcastsInDim S64x32x1 (![] : Fin 0 → Fin S64x32x1.rank)
  bcast_S64x32x1_S64x32x128_0_1_2 : S64x32x1.BroadcastsInDim S64x32x128 (![0, 1, 2] : Fin 3 → Fin S64x32x128.rank)
  reducesTo_S64x512x128_S64x512_d2 : S64x512x128.ReducesTo [2] S64x512
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x128_0_1_2 : S64x512x1.BroadcastsInDim S64x512x128 (![0, 1, 2] : Fin 3 → Fin S64x512x128.rank)
  transposes_S64x512x64x32_S64x64x32x512_2_0_3_1 : S64x512x64x32.Transposes [2, 0, 3, 1] S64x64x32x512
  reducesTo_S64x64x32x512_S64x64x32_d3 : S64x64x32x512.ReducesTo [3] S64x64x32
  reducesTo_S64x64x32_S64x64_d2 : S64x64x32.ReducesTo [2] S64x64
  dot_S64x32x768_S128x768_S64x32x128_2_1_01_0_n_n_wf : DotDims.WF S64x32x768 S128x768 S64x32x128 [2] [1] [0, 1] [0] [] []
  dot_S64x512x768_S128x768_S64x512x128_2_1_01_0_n_n_wf : DotDims.WF S64x512x768 S128x768 S64x512x128 [2] [1] [0, 1] [0] [] []
  dot_S64x512x128_S64x32x128_S64x512x64x32_2_2_01_01_n_n_wf : DotDims.WF S64x512x128 S64x32x128 S64x512x64x32 [2] [2] [0, 1] [0, 1] [] []

variable [Facts₀]

def dot_S64x32x768_S128x768_S64x32x128_2_1_01_0_n_n : DotDims S64x32x768 S128x768 S64x32x128 where
  lhsContracting := [2]
  rhsContracting := [1]
  lhsNonContracting := [0, 1]
  rhsNonContracting := [0]
  lhsBatch := []
  rhsBatch := []
  wf := dot_S64x32x768_S128x768_S64x32x128_2_1_01_0_n_n_wf
def dot_S64x512x768_S128x768_S64x512x128_2_1_01_0_n_n : DotDims S64x512x768 S128x768 S64x512x128 where
  lhsContracting := [2]
  rhsContracting := [1]
  lhsNonContracting := [0, 1]
  rhsNonContracting := [0]
  lhsBatch := []
  rhsBatch := []
  wf := dot_S64x512x768_S128x768_S64x512x128_2_1_01_0_n_n_wf
def dot_S64x512x128_S64x32x128_S64x512x64x32_2_2_01_01_n_n : DotDims S64x512x128 S64x32x128 S64x512x64x32 where
  lhsContracting := [2]
  rhsContracting := [2]
  lhsNonContracting := [0, 1]
  rhsNonContracting := [0, 1]
  lhsBatch := []
  rhsBatch := []
  wf := dot_S64x512x128_S64x32x128_S64x512x64x32_2_2_01_01_n_n_wf

class Facts : Prop extends Facts₀ where

variable [Facts]
-- ==== Proof.Spec.lean ====
/-
  Late-interaction scoring, as one function of the three inputs.

  A token's hidden vector x[b, l, ·] (768 entries) is projected onto the 128 rows of the weight,
  P[b, l, h] = Σ_k x[b, l, k] · w[h, k], and the projection is scaled to unit length with a floor under the norm:
  U[b, l, h] = P[b, l, h] / max(√(Σ_h' P[b, l, h']²), ε), ε the single-precision word nearest 1e-12 at its exact value.
  The score of query q against document p is the sum, over the 32 query tokens i, of the largest inner product
  Σ_h Uq[q, i, h] · Up[p, j, h] over the 512 document tokens j; the running maximum starts at −∞ and the sums at 0.
  All of it is read on the extended reals: sums, products, the quotient, the root and the maximum are the exact ones.

  The same scaling is also stated for token rows laid out flat ([R, 768], row r), and the pair score for flat query
  rows (query q's token i is row q·32 + i) against three-axis document rows; the flat forms of a reshaped array are
  the three-axis forms of the array.
-/
import Idealize.ShloMosaic.PureOps.Ideal.Laws
import Idealize.ShloMosaic.Lib.ValueIdx

noncomputable section

namespace Cert.MaxSim

open Idealize.ShloMosaic Idealize.ShloMosaic.ValueIdx

/-- The floor under a row's norm: the word 0x2B8CBCCC at its exact value. -/
abbrev floorEps : EReal := Ideal.ofBits .f32 0x2B8CBCCC#32

/-- What a running maximum starts from: the word of −∞. -/
abbrev negInf : EReal := Ideal.ofBits .f32 0xFF800000#32

/-- A unit-length scaling of the 128 numbers `P`, read at `h`: `P h / max(√(Σ P²), ε)`. -/
def scaled (P : Fin 128 → EReal) (h : Fin 128) : EReal :=
  Ideal.div (P h) (max (Ideal.sqrt (∑ h' : Fin 128, P h' * P h')) floorEps)

/-- Token (b, l)'s projection onto weight row h. -/
def proj3 {B L : ℕ} (x : (⟨3, ![B, L, 768]⟩ : Shape).Idx → EReal) (w : (⟨2, ![128, 768]⟩ : Shape).Idx → EReal)
    (b : Fin B) (l : Fin L) (h : Fin 128) : EReal :=
  ∑ k : Fin 768, x (ix3 b l k) * w (ix2 h k)

/-- Token (b, l)'s unit-length projection at h. -/
def unit3 {B L : ℕ} (x : (⟨3, ![B, L, 768]⟩ : Shape).Idx → EReal) (w : (⟨2, ![128, 768]⟩ : Shape).Idx → EReal)
    (b : Fin B) (l : Fin L) (h : Fin 128) : EReal :=
  scaled (proj3 x w b l) h

/-- The score of query q against document p. -/
def score (xq : (⟨3, ![64, 32, 768]⟩ : Shape).Idx → EReal) (xp : (⟨3, ![64, 512, 768]⟩ : Shape).Idx → EReal)
    (w : (⟨2, ![128, 768]⟩ : Shape).Idx → EReal) (q p : Fin 64) : EReal :=
  ∑ i : Fin 32, (Finset.univ : Finset (Fin 512)).fold max negInf
    (fun j => ∑ h : Fin 128, unit3 xq w q i h * unit3 xp w p j h)

/-- The whole result, [64 queries, 64 documents]. -/
def scores (xq : (⟨3, ![64, 32, 768]⟩ : Shape).Idx → EReal) (xp : (⟨3, ![64, 512, 768]⟩ : Shape).Idx → EReal)
    (w : (⟨2, ![128, 768]⟩ : Shape).Idx → EReal) : (⟨2, ![64, 64]⟩ : Shape).Idx → EReal :=
  fun j => score xq xp w (j 0) (j 1)

/-! ## Flat rows -/

/-- Row r's projection onto weight row h, the rows laid out flat. -/
def proj2 {R : ℕ} (x : (⟨2, ![R, 768]⟩ : Shape).Idx → EReal) (w : (⟨2, ![128, 768]⟩ : Shape).Idx → EReal)
    (r : Fin R) (h : Fin 128) : EReal :=
  ∑ k : Fin 768, x (ix2 r k) * w (ix2 h k)

/-- Row r's unit-length projection at h. -/
def unit2 {R : ℕ} (x : (⟨2, ![R, 768]⟩ : Shape).Idx → EReal) (w : (⟨2, ![128, 768]⟩ : Shape).Idx → EReal)
    (r : Fin R) (h : Fin 128) : EReal :=
  scaled (proj2 x w r) h

/-- The array of unit-length projections, [R, 128]. -/
def unitRows {R : ℕ} (x : (⟨2, ![R, 768]⟩ : Shape).Idx → EReal) (w : (⟨2, ![128, 768]⟩ : Shape).Idx → EReal) :
    (⟨2, ![R, 128]⟩ : Shape).Idx → EReal :=
  fun j => unit2 x w (j 0) (j 1)

/-- Query q's token i as a flat row. -/
def qrow (q : Fin 64) (i : Fin 32) : Fin 2048 := ⟨q.val * 32 + i.val, by omega⟩

/-- Document p's token j as a flat row. -/
def prow (p : Fin 64) (j : Fin 512) : Fin 32768 := ⟨p.val * 512 + j.val, by omega⟩

/-- Document p against query q, from already scaled rows: flat query rows, three-axis document rows. -/
def pairScore (Q : (⟨2, ![2048, 128]⟩ : Shape).Idx → EReal) (D : (⟨3, ![64, 512, 128]⟩ : Shape).Idx → EReal)
    (p q : Fin 64) : EReal :=
  ∑ i : Fin 32, (Finset.univ : Finset (Fin 512)).fold max negInf
    (fun j => ∑ h : Fin 128, Q (ix2 (qrow q i) h) * D (ix3 p j h))

/-- One document against query q, the document's 512 scaled token rows given as a [1, 512, 128] block. -/
def docScore (Q : (⟨2, ![2048, 128]⟩ : Shape).Idx → EReal) (D1 : (⟨3, ![1, 512, 128]⟩ : Shape).Idx → EReal)
    (q : Fin 64) : EReal :=
  ∑ i : Fin 32, (Finset.univ : Finset (Fin 512)).fold max negInf
    (fun j => ∑ h : Fin 128, Q (ix2 (qrow q i) h) * D1 (ix3 (0 : Fin 1) j h))

/-- The array of pair scores, [64 documents, 64 queries]. -/
def pairScores (Q : (⟨2, ![2048, 128]⟩ : Shape).Idx → EReal) (D : (⟨3, ![64, 512, 128]⟩ : Shape).Idx → EReal) :
    (⟨2, ![64, 64]⟩ : Shape).Idx → EReal :=
  fun j => pairScore Q D (j 0) (j 1)

end Cert.MaxSim

end
-- ==== Proof.SpecLaws.lean ====
/-
  The specification's functions depend on their arrays only through the rows they read.

  A row's unit-length projection reads one row of the token array and the whole weight; so two token arrays that
  agree on a row, under any renumbering of rows, give the same projection there: flat against flat, and flat against
  three-axis (a reshape keeps row b·L + l of the flat array equal to token (b, l)). The pair score reads the scaled
  rows of one document and of one query's tokens.
-/
import proofs.«150726_j1288490189594_1_alg».proof.Proof.Spec

noncomputable section

namespace Cert.MaxSim

open Idealize.ShloMosaic Idealize.ShloMosaic.ValueIdx

/-- Two flat token arrays that agree on a row (and equal weights) have the same unit-length projection there. -/
theorem unit2_congr {R R' : ℕ} (x : (⟨2, ![R, 768]⟩ : Shape).Idx → EReal) (x' : (⟨2, ![R', 768]⟩ : Shape).Idx → EReal)
    (w w' : (⟨2, ![128, 768]⟩ : Shape).Idx → EReal) (r : Fin R) (r' : Fin R') (h h' : Fin 128)
    (hx : ∀ k : Fin 768, x (ix2 r k) = x' (ix2 r' k)) (hw : ∀ (a : Fin 128) (k : Fin 768), w (ix2 a k) = w' (ix2 a k))
    (hh : h = h') : unit2 x w r h = unit2 x' w' r' h' := by
  subst hh
  unfold unit2 scaled proj2
  simp only [hx, hw]

/-- A flat row that holds token (b, l) has that token's unit-length projection. -/
theorem unit2_eq_unit3 {R B L : ℕ} (x : (⟨2, ![R, 768]⟩ : Shape).Idx → EReal) (x3 : (⟨3, ![B, L, 768]⟩ : Shape).Idx → EReal)
    (w : (⟨2, ![128, 768]⟩ : Shape).Idx → EReal) (r : Fin R) (b : Fin B) (l : Fin L) (h : Fin 128)
    (hx : ∀ k : Fin 768, x (ix2 r k) = x3 (ix3 b l k)) : unit2 x w r h = unit3 x3 w b l h := by
  unfold unit2 unit3 scaled proj2 proj3
  simp only [hx]

/-- The pair score from scaled rows that are the unit-length projections of the tokens is the score. -/
theorem pairScore_eq_score (Q : (⟨2, ![2048, 128]⟩ : Shape).Idx → EReal) (D : (⟨3, ![64, 512, 128]⟩ : Shape).Idx → EReal)
    (xq : (⟨3, ![64, 32, 768]⟩ : Shape).Idx → EReal) (xp : (⟨3, ![64, 512, 768]⟩ : Shape).Idx → EReal)
    (w : (⟨2, ![128, 768]⟩ : Shape).Idx → EReal)
    (hQ : ∀ (q : Fin 64) (i : Fin 32) (h : Fin 128), Q (ix2 (qrow q i) h) = unit3 xq w q i h)
    (hD : ∀ (p : Fin 64) (j : Fin 512) (h : Fin 128), D (ix3 p j h) = unit3 xp w p j h)
    (p q : Fin 64) : pairScore Q D p q = score xq xp w q p := by
  unfold pairScore score
  simp only [hQ, hD]

/-- One document's block against a query is the pair score, when the block holds the document's rows. -/
theorem docScore_eq_pairScore (Q : (⟨2, ![2048, 128]⟩ : Shape).Idx → EReal) (D1 : (⟨3, ![1, 512, 128]⟩ : Shape).Idx → EReal)
    (D : (⟨3, ![64, 512, 128]⟩ : Shape).Idx → EReal) (p q : Fin 64)
    (hD : ∀ (j : Fin 512) (h : Fin 128), D1 (ix3 (0 : Fin 1) j h) = D (ix3 p j h)) :
    docScore Q D1 q = pairScore Q D p q := by
  unfold docScore pairScore
  simp only [hD]

/-- The document-block score reads its query rows and its block only where stated. -/
theorem docScore_congr (Q Q' : (⟨2, ![2048, 128]⟩ : Shape).Idx → EReal) (D1 D1' : (⟨3, ![1, 512, 128]⟩ : Shape).Idx → EReal)
    (q : Fin 64) (hQ : ∀ (r : Fin 2048) (h : Fin 128), Q (ix2 r h) = Q' (ix2 r h))
    (hD : ∀ (j : Fin 512) (h : Fin 128), D1 (ix3 (0 : Fin 1) j h) = D1' (ix3 (0 : Fin 1) j h)) :
    docScore Q D1 q = docScore Q' D1' q := by
  unfold docScore
  simp only [hQ, hD]

end Cert.MaxSim

end
-- ==== Proof.Rows0.lean ====
/-
  The first scaling region: the 2048 flat query rows in one block.

  The region's one grid point loads the whole [2048, 768] row array and the whole weight and stores the [2048, 128]
  block of unit-length projections; its block is the array, so after the region the array holds, at (r, h), the
  unit-length projection of row r at h. Stated at any contents the region is entered with, and over the fact that
  the stored payload at (r, h) is that projection.
-/
import proofs.«150726_j1288490189594_1_alg».proof.Proof.Gen.KernelIdeal.Frame
import proofs.«150726_j1288490189594_1_alg».proof.Proof.SpecLaws
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Rows0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem xblk (c : Dev nD) (t : Fin cfg0.N) (y : Fin 2048) (k : Fin 768) (r : Fin 2048) (hr : r.val = t.val * 2048 + y.val) :
    (iblk0 V c 0 t : Vec Ideal S2048x768 .f32) (ix2 y k) = (V c main_v0 : S2048x768.Idx → EReal) (ix2 r k) := by
  obtain ⟨e0, e1, -, -, -, -⟩ := idx t
  unfold iblk0
  rw [View.read_apply]
  show (V c main_v0 : S2048x768.Idx → EReal) _ = _
  refine congrArg _ ?_
  funext a
  apply Fin.ext
  match a with
  | ⟨0, _⟩ => show win0_0.index t (0 : Fin 2) * 2048 + 1 * y.val = r.val; rw [e0, hr]; omega
  | ⟨1, _⟩ => show win0_0.index t (1 : Fin 2) * 768 + 1 * k.val = k.val; rw [e1]; omega

theorem wblk (c : Dev nD) (t : Fin cfg0.N) (h : Fin 128) (k : Fin 768) :
    (iblk0 V c 1 t : Vec Ideal S128x768 .f32) (ix2 h k) = (V c main_arg2 : S128x768.Idx → EReal) (ix2 h k) := by
  obtain ⟨-, -, e2, e3, -, -⟩ := idx t
  unfold iblk0
  rw [View.read_apply]
  show (V c main_arg2 : S128x768.Idx → EReal) _ = _
  refine congrArg _ ?_
  funext a
  apply Fin.ext
  match a with
  | ⟨0, _⟩ => show win0_1.index t (0 : Fin 2) * 128 + 1 * h.val = h.val; rw [e2]; omega
  | ⟨1, _⟩ => show win0_1.index t (1 : Fin 2) * 768 + 1 * k.val = k.val; rw [e3]; omega

/-- What the one point writes back is the unit-length projection of every row the region finds. -/
theorem flushed_eq (hpay : ∀ (x : Vec Ideal S2048x768 .f32) (w : Vec Ideal S128x768 .f32) (r : Fin 2048) (h : Fin 128),
      k0_pay1 (F := Ideal) x w (ix2 r h) = Cert.MaxSim.unit2 x w r h) (c : Dev nD) (t : Fin cfg0.N) :
    (dat0 V c).flushed 2 t = ((cfg0.win 2).blk t).view.read (Elt Ideal)
      (Cert.MaxSim.unitRows (V c main_v0 : S2048x768.Idx → EReal) (V c main_arg2 : S128x768.Idx → EReal)) := by
  show (cfg0.win 2).cut (grid0.coords t) ((dat0 V c).after 2 t) = _
  rw [after0_2]
  unfold out0_2
  rw [View.canon_unit_zero hz]
  simp only [View.ld_unit_zero (S := S2048x768) hz, View.ld_unit_zero (S := S128x768) hz]
  obtain ⟨-, -, -, -, e4, e5⟩ := idx t
  funext j
  obtain ⟨p, q, rfl⟩ : ∃ (p : Fin 2048) (q : Fin 128), j = ix2 p q := ⟨j 0, j 1, eq_ix2 j⟩
  show k0_pay1 (F := Ideal) (iblk0 V c 0 t) (iblk0 V c 1 t) (ix2 p q)
    = Cert.MaxSim.unitRows (V c main_v0 : S2048x768.Idx → EReal) (V c main_arg2 : S128x768.Idx → EReal) (((cfg0.win 2).blk t).view.emb (ix2 p q))
  refine (hpay (iblk0 V c 0 t) (iblk0 V c 1 t) p q).trans ?_
  unfold Cert.MaxSim.unitRows
  refine Cert.MaxSim.unit2_congr _ _ _ _ p _ q _ (fun k => xblk V c t p k _ ?_) (fun a k => wblk V c t a k) (Fin.ext ?_)
  · show win0_2.index t (0 : Fin 2) * 2048 + 1 * p.val = t.val * 2048 + p.val; rw [e4]; omega
  · show q.val = win0_2.index t (1 : Fin 2) * 128 + 1 * q.val; rw [e5]; omega

/-- An index of the array is in point t's block iff each coordinate is in the block's range on its axis. -/
theorem mem_blk (t : Fin cfg0.N) (i : S2048x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v2).slice (win0_2.rect t)).set ↔ _
  rw [View.set_slice_whole, Rect.mem_set_unit]
  exact Iff.rfl

/-- The one block is the whole array, so after the region the array holds the unit-length projection of every row. -/
theorem final (hpay : ∀ (x : Vec Ideal S2048x768 .f32) (w : Vec Ideal S128x768 .f32) (r : Fin 2048) (h : Fin 128),
      k0_pay1 (F := Ideal) x w (ix2 r h) = Cert.MaxSim.unit2 x w r h) (c : Dev nD) :
    (dat0 V c).arrAt 2 cfg0.N
      = Cert.MaxSim.unitRows (V c main_v0 : S2048x768.Idx → EReal) (V c main_arg2 : S128x768.Idx → EReal) :=
  (dat0 V c).arrAt_eq_of_cover 2 _ (fun t _ => flushed_eq V hpay c t) fun i => by
    have h0 : (i 0).val < 2048 := (i 0).isLt
    have h1 : (i 1).val < 128 := (i 1).isLt
    refine ⟨⟨(i 0).val / 2048, by rw [show cfg0.N = 1 from N_0]; omega⟩, flush0_2 _, ?_⟩
    rw [mem_blk]
    obtain ⟨-, -, -, -, e4, e5⟩ := idx ⟨(i 0).val / 2048, by rw [show cfg0.N = 1 from N_0]; omega⟩
    intro a
    match a with
    | ⟨0, _⟩ =>
      show win0_2.index _ (0 : Fin 2) * 2048 ≤ (i 0).val ∧ (i 0).val < win0_2.index _ (0 : Fin 2) * 2048 + 2048
      rw [e4]; show (i 0).val / 2048 * 2048 ≤ (i 0).val ∧ (i 0).val < (i 0).val / 2048 * 2048 + 2048; omega
    | ⟨1, _⟩ =>
      show win0_2.index _ (1 : Fin 2) * 128 ≤ (i 1).val ∧ (i 1).val < win0_2.index _ (1 : Fin 2) * 128 + 128
      rw [e5]; omega

end Cert.KernelIdeal.Rows0

end
-- ==== Proof.Rows1.lean ====
/-
  The second scaling region: the 32768 flat document rows in sixteen blocks of 2048.

  Point t loads rows 2048·t … 2048·t + 2047 and the whole weight and stores the unit-length projections of those rows;
  a row's projection reads only that row, so block t of the result is block t of ONE array, the unit-length projection
  of every row, and the sixteen blocks tile it (row r lies in block r / 2048). Stated at any contents the region is
  entered with, and over the fact that the stored payload at (r, h) is row r's projection at h.
-/
import proofs.«150726_j1288490189594_1_alg».proof.Proof.Gen.KernelIdeal.Frame
import proofs.«150726_j1288490189594_1_alg».proof.Proof.SpecLaws
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Rows1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem xblk (c : Dev nD) (t : Fin cfg1.N) (y : Fin 2048) (k : Fin 768) (r : Fin 32768) (hr : r.val = t.val * 2048 + y.val) :
    (iblk1 V c 0 t : Vec Ideal S2048x768 .f32) (ix2 y k) = (V c main_v1 : S32768x768.Idx → EReal) (ix2 r k) := by
  obtain ⟨e0, e1, -, -, -, -⟩ := idx t
  unfold iblk1
  rw [View.read_apply]
  show (V c main_v1 : S32768x768.Idx → EReal) _ = _
  refine congrArg _ ?_
  funext a
  apply Fin.ext
  match a with
  | ⟨0, _⟩ => show win1_0.index t (0 : Fin 2) * 2048 + 1 * y.val = r.val; rw [e0, hr]; omega
  | ⟨1, _⟩ => show win1_0.index t (1 : Fin 2) * 768 + 1 * k.val = k.val; rw [e1]; omega

theorem wblk (c : Dev nD) (t : Fin cfg1.N) (h : Fin 128) (k : Fin 768) :
    (iblk1 V c 1 t : Vec Ideal S128x768 .f32) (ix2 h k) = (V c main_arg2 : S128x768.Idx → EReal) (ix2 h k) := by
  obtain ⟨-, -, e2, e3, -, -⟩ := idx t
  unfold iblk1
  rw [View.read_apply]
  show (V c main_arg2 : S128x768.Idx → EReal) _ = _
  refine congrArg _ ?_
  funext a
  apply Fin.ext
  match a with
  | ⟨0, _⟩ => show win1_1.index t (0 : Fin 2) * 128 + 1 * h.val = h.val; rw [e2]; omega
  | ⟨1, _⟩ => show win1_1.index t (1 : Fin 2) * 768 + 1 * k.val = k.val; rw [e3]; omega

/-- What point t writes back is rows 2048·t … 2048·t + 2047 of the unit-length projections of the rows the region finds. -/
theorem flushed_eq (hpay : ∀ (x : Vec Ideal S2048x768 .f32) (w : Vec Ideal S128x768 .f32) (r : Fin 2048) (h : Fin 128),
      k1_pay1 (F := Ideal) x w (ix2 r h) = Cert.MaxSim.unit2 x w r h) (c : Dev nD) (t : Fin cfg1.N) :
    (dat1 V c).flushed 2 t = ((cfg1.win 2).blk t).view.read (Elt Ideal)
      (Cert.MaxSim.unitRows (V c main_v1 : S32768x768.Idx → EReal) (V c main_arg2 : S128x768.Idx → EReal)) := by
  show (cfg1.win 2).cut (grid1.coords t) ((dat1 V c).after 2 t) = _
  rw [after1_2]
  unfold out1_2
  rw [View.canon_unit_zero hz]
  simp only [View.ld_unit_zero (S := S2048x768) hz, View.ld_unit_zero (S := S128x768) hz]
  obtain ⟨-, -, -, -, e4, e5⟩ := idx t
  funext j
  obtain ⟨p, q, rfl⟩ : ∃ (p : Fin 2048) (q : Fin 128), j = ix2 p q := ⟨j 0, j 1, eq_ix2 j⟩
  show k1_pay1 (F := Ideal) (iblk1 V c 0 t) (iblk1 V c 1 t) (ix2 p q)
    = Cert.MaxSim.unitRows (V c main_v1 : S32768x768.Idx → EReal) (V c main_arg2 : S128x768.Idx → EReal) (((cfg1.win 2).blk t).view.emb (ix2 p q))
  refine (hpay (iblk1 V c 0 t) (iblk1 V c 1 t) p q).trans ?_
  unfold Cert.MaxSim.unitRows
  refine Cert.MaxSim.unit2_congr _ _ _ _ p _ q _ (fun k => xblk V c t p k _ ?_) (fun a k => wblk V c t a k) (Fin.ext ?_)
  · show win1_2.index t (0 : Fin 2) * 2048 + 1 * p.val = t.val * 2048 + p.val; rw [e4]; omega
  · show q.val = win1_2.index t (1 : Fin 2) * 128 + 1 * q.val; rw [e5]; omega

/-- An index of the array is in point t's block iff each coordinate is in the block's range on its axis. -/
theorem mem_blk (t : Fin cfg1.N) (i : S32768x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v3).slice (win1_2.rect t)).set ↔ _
  rw [View.set_slice_whole, Rect.mem_set_unit]
  exact Iff.rfl

/-- The sixteen row blocks tile the array (row r lies in block r / 2048), so after the region the array holds the
    unit-length projection of every row. -/
theorem final (hpay : ∀ (x : Vec Ideal S2048x768 .f32) (w : Vec Ideal S128x768 .f32) (r : Fin 2048) (h : Fin 128),
      k1_pay1 (F := Ideal) x w (ix2 r h) = Cert.MaxSim.unit2 x w r h) (c : Dev nD) :
    (dat1 V c).arrAt 2 cfg1.N
      = Cert.MaxSim.unitRows (V c main_v1 : S32768x768.Idx → EReal) (V c main_arg2 : S128x768.Idx → EReal) :=
  (dat1 V c).arrAt_eq_of_cover 2 _ (fun t _ => flushed_eq V hpay c t) fun i => by
    have h0 : (i 0).val < 32768 := (i 0).isLt
    have h1 : (i 1).val < 128 := (i 1).isLt
    refine ⟨⟨(i 0).val / 2048, by rw [show cfg1.N = 16 from N_1]; omega⟩, flush1_2 _, ?_⟩
    rw [mem_blk]
    obtain ⟨-, -, -, -, e4, e5⟩ := idx ⟨(i 0).val / 2048, by rw [show cfg1.N = 16 from N_1]; omega⟩
    intro a
    match a with
    | ⟨0, _⟩ =>
      show win1_2.index _ (0 : Fin 2) * 2048 ≤ (i 0).val ∧ (i 0).val < win1_2.index _ (0 : Fin 2) * 2048 + 2048
      rw [e4]; show (i 0).val / 2048 * 2048 ≤ (i 0).val ∧ (i 0).val < (i 0).val / 2048 * 2048 + 2048; omega
    | ⟨1, _⟩ =>
      show win1_2.index _ (1 : Fin 2) * 128 ≤ (i 1).val ∧ (i 1).val < win1_2.index _ (1 : Fin 2) * 128 + 128
      rw [e5]; omega

end Cert.KernelIdeal.Rows1

end
-- ==== Proof.Pairs.lean ====
/-
  The scoring region: 64 documents, eight at a point, against all 64 queries.

  Point t holds the whole [2048, 128] array of scaled query rows and documents 8·t … 8·t + 7 of the [64, 512, 128]
  scaled document rows; for each of its eight documents it stores one row of the [8, 64] result block: against query q
  the sum, over the query's 32 tokens, of the largest inner product with the document's 512 tokens. The eight stores
  tile the block, so the block is one function of the two input blocks; block t of the result is rows 8·t … 8·t + 7 of
  ONE array, the pair scores, and the eight blocks tile it (document p lies in block p / 8). Stated at any contents the
  region is entered with, and over the fact that each store's payload scores its document's block against every query.
-/
import proofs.«150726_j1288490189594_1_alg».proof.Proof.Gen.KernelIdeal.Frame
import proofs.«150726_j1288490189594_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pairs

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the query rows stay put, the document rows and the result rows move
    eight at a point. -/
theorem idx : ∀ t : Fin cfg2.N, win2_0.index t (0 : Fin 2) = 0 ∧ win2_0.index t (1 : Fin 2) = 0
    ∧ win2_1.index t (0 : Fin 3) = t.val ∧ win2_1.index t (1 : Fin 3) = 0 ∧ win2_1.index t (2 : Fin 3) = 0
    ∧ win2_2.index t (0 : Fin 2) = t.val ∧ win2_2.index t (1 : Fin 2) = 0 :=
  (by decide +kernel : ∀ t : Fin grid2.N, _)

/-- A payload that scores one document's [1, 512, 128] block against every query's rows. -/
abbrev DocPay (f : Vec Ideal S1x512x128 .bf16 → Vec Ideal S2048x128 .bf16 → FVec Ideal S1x64 .f32) : Prop :=
  ∀ (d : Vec Ideal S1x512x128 .bf16) (qv : Vec Ideal S2048x128 .bf16) (u : Fin 1) (q : Fin 64),
    f d qv (ix2 u q) = Cert.MaxSim.docScore qv d q

/-- Eight documents' scaled rows against every query: entry (a, q) sums, over query q's tokens, the largest inner
    product with document a's tokens. -/
def blkScore (Q : S2048x128.Idx → EReal) (D8 : S8x512x128.Idx → EReal) : S8x64.Idx → EReal :=
  fun y => ∑ i : Fin 32, (Finset.univ : Finset (Fin 512)).fold max Cert.MaxSim.negInf
    (fun j => ∑ h : Fin 128, Q (ix2 (Cert.MaxSim.qrow (y 1) i) h) * D8 (ix3 (y 0) j h))

/-- One document's block scored alone is its row of the eight. -/
theorem docScore_eq_blk (Q : S2048x128.Idx → EReal) (D8 : S8x512x128.Idx → EReal) (Q' : S2048x128.Idx → EReal)
    (D1 : S1x512x128.Idx → EReal) (a : Fin 8) (q : Fin 64) (y : S8x64.Idx) (hy0 : y 0 = a) (hy1 : y 1 = q)
    (hQ : ∀ (r : Fin 2048) (h : Fin 128), Q' (ix2 r h) = Q (ix2 r h))
    (hD : ∀ (j : Fin 512) (h : Fin 128), D1 (ix3 (0 : Fin 1) j h) = D8 (ix3 a j h)) :
    Cert.MaxSim.docScore Q' D1 q = blkScore Q D8 y := by
  unfold Cert.MaxSim.docScore blkScore
  rw [hy0, hy1]
  simp only [hQ, hD]

/-- The store into row 7 of the block: document 7 of the point's eight against every query. -/
theorem piece7 (hf : DocPay (fun d qv => k2_pay3 (F := Ideal) d qv)) (x0 : Vec Ideal S2048x128 .bf16) (x1 : Vec Ideal S8x512x128 .bf16)
    (x : r2_16.shape.Idx) :
    k2_pay3 (F := Ideal) (View.ld x1 r2_15) (View.ld x0 r2_1) x = blkScore x0 x1 (r2_16.emb x) := by
  obtain ⟨u, q, rfl⟩ : ∃ (u : Fin 1) (q : Fin 64), x = ix2 u q := ⟨x 0, x 1, eq_ix2 x⟩
  refine (hf (View.ld x1 r2_15) (View.ld x0 r2_1) u q).trans ?_
  have hu : u.val = 0 := by have := u.isLt; omega
  refine docScore_eq_blk x0 x1 (View.ld x0 r2_1) (View.ld x1 r2_15) (7 : Fin 8) q (r2_16.emb (ix2 u q)) ?_ ?_ ?_ ?_
  · exact Fin.ext (by show 7 + 1 * u.val = 7; omega)
  · exact Fin.ext (by show 0 + 1 * q.val = q.val; omega)
  · intro r h; rw [View.ld_unit_zero (S := S2048x128) hz2]
  · intro j h
    show x1 (r2_15.idx (ix3 (0 : Fin 1) j h)) = x1 (ix3 (7 : Fin 8) j h)
    refine congrArg x1 (funext fun b => Fin.ext ?_)
    match b with
    | ⟨0, _⟩ => show 7 + 1 * 0 = 7; omega
    | ⟨1, _⟩ => show 0 + 1 * j.val = j.val; omega
    | ⟨2, _⟩ => show 0 + 1 * h.val = h.val; omega

/-- The store into row 6 of the block: document 6 of the point's eight against every query. -/
theorem piece6 (hf : DocPay (fun d qv => k2_pay2 (F := Ideal) d qv)) (x0 : Vec Ideal S2048x128 .bf16) (x1 : Vec Ideal S8x512x128 .bf16)
    (x : r2_14.shape.Idx) :
    k2_pay2 (F := Ideal) (View.ld x1 r2_13) (View.ld x0 r2_1) x = blkScore x0 x1 (r2_14.emb x) := by
  obtain ⟨u, q, rfl⟩ : ∃ (u : Fin 1) (q : Fin 64), x = ix2 u q := ⟨x 0, x 1, eq_ix2 x⟩
  refine (hf (View.ld x1 r2_13) (View.ld x0 r2_1) u q).trans ?_
  have hu : u.val = 0 := by have := u.isLt; omega
  refine docScore_eq_blk x0 x1 (View.ld x0 r2_1) (View.ld x1 r2_13) (6 : Fin 8) q (r2_14.emb (ix2 u q)) ?_ ?_ ?_ ?_
  · exact Fin.ext (by show 6 + 1 * u.val = 6; omega)
  · exact Fin.ext (by show 0 + 1 * q.val = q.val; omega)
  · intro r h; rw [View.ld_unit_zero (S := S2048x128) hz2]
  · intro j h
    show x1 (r2_13.idx (ix3 (0 : Fin 1) j h)) = x1 (ix3 (6 : Fin 8) j h)
    refine congrArg x1 (funext fun b => Fin.ext ?_)
    match b with
    | ⟨0, _⟩ => show 6 + 1 * 0 = 6; omega
    | ⟨1, _⟩ => show 0 + 1 * j.val = j.val; omega
    | ⟨2, _⟩ => show 0 + 1 * h.val = h.val; omega

/-- The store into row 5 of the block: document 5 of the point's eight against every query. -/
theorem piece5 (hf : DocPay (fun d qv => k2_pay1 (F := Ideal) (k2_pay10 d) (k2_pay11 qv))) (x0 : Vec Ideal S2048x128 .bf16) (x1 : Vec Ideal S8x512x128 .bf16)
    (x : r2_12.shape.Idx) :
    k2_pay1 (F := Ideal) (k2_pay10 (View.ld x1 r2_11)) (k2_pay11 (View.ld x0 r2_1)) x = blkScore x0 x1 (r2_12.emb x) := by
  obtain ⟨u, q, rfl⟩ : ∃ (u : Fin 1) (q : Fin 64), x = ix2 u q := ⟨x 0, x 1, eq_ix2 x⟩
  refine (hf (View.ld x1 r2_11) (View.ld x0 r2_1) u q).trans ?_
  have hu : u.val = 0 := by have := u.isLt; omega
  refine docScore_eq_blk x0 x1 (View.ld x0 r2_1) (View.ld x1 r2_11) (5 : Fin 8) q (r2_12.emb (ix2 u q)) ?_ ?_ ?_ ?_
  · exact Fin.ext (by show 5 + 1 * u.val = 5; omega)
  · exact Fin.ext (by show 0 + 1 * q.val = q.val; omega)
  · intro r h; rw [View.ld_unit_zero (S := S2048x128) hz2]
  · intro j h
    show x1 (r2_11.idx (ix3 (0 : Fin 1) j h)) = x1 (ix3 (5 : Fin 8) j h)
    refine congrArg x1 (funext fun b => Fin.ext ?_)
    match b with
    | ⟨0, _⟩ => show 5 + 1 * 0 = 5; omega
    | ⟨1, _⟩ => show 0 + 1 * j.val = j.val; omega
    | ⟨2, _⟩ => show 0 + 1 * h.val = h.val; omega

/-- The store into row 4 of the block: document 4 of the point's eight against every query. -/
theorem piece4 (hf : DocPay (fun d qv => k2_pay9 (F := Ideal) d qv)) (x0 : Vec Ideal S2048x128 .bf16) (x1 : Vec Ideal S8x512x128 .bf16)
    (x : r2_10.shape.Idx) :
    k2_pay9 (F := Ideal) (View.ld x1 r2_9) (View.ld x0 r2_1) x = blkScore x0 x1 (r2_10.emb x) := by
  obtain ⟨u, q, rfl⟩ : ∃ (u : Fin 1) (q : Fin 64), x = ix2 u q := ⟨x 0, x 1, eq_ix2 x⟩
  refine (hf (View.ld x1 r2_9) (View.ld x0 r2_1) u q).trans ?_
  have hu : u.val = 0 := by have := u.isLt; omega
  refine docScore_eq_blk x0 x1 (View.ld x0 r2_1) (View.ld x1 r2_9) (4 : Fin 8) q (r2_10.emb (ix2 u q)) ?_ ?_ ?_ ?_
  · exact Fin.ext (by show 4 + 1 * u.val = 4; omega)
  · exact Fin.ext (by show 0 + 1 * q.val = q.val; omega)
  · intro r h; rw [View.ld_unit_zero (S := S2048x128) hz2]
  · intro j h
    show x1 (r2_9.idx (ix3 (0 : Fin 1) j h)) = x1 (ix3 (4 : Fin 8) j h)
    refine congrArg x1 (funext fun b => Fin.ext ?_)
    match b with
    | ⟨0, _⟩ => show 4 + 1 * 0 = 4; omega
    | ⟨1, _⟩ => show 0 + 1 * j.val = j.val; omega
    | ⟨2, _⟩ => show 0 + 1 * h.val = h.val; omega

/-- The store into row 3 of the block: document 3 of the point's eight against every query. -/
theorem piece3 (hf : DocPay (fun d qv => k2_pay8 (F := Ideal) d qv)) (x0 : Vec Ideal S2048x128 .bf16) (x1 : Vec Ideal S8x512x128 .bf16)
    (x : r2_8.shape.Idx) :
    k2_pay8 (F := Ideal) (View.ld x1 r2_7) (View.ld x0 r2_1) x = blkScore x0 x1 (r2_8.emb x) := by
  obtain ⟨u, q, rfl⟩ : ∃ (u : Fin 1) (q : Fin 64), x = ix2 u q := ⟨x 0, x 1, eq_ix2 x⟩
  refine (hf (View.ld x1 r2_7) (View.ld x0 r2_1) u q).trans ?_
  have hu : u.val = 0 := by have := u.isLt; omega
  refine docScore_eq_blk x0 x1 (View.ld x0 r2_1) (View.ld x1 r2_7) (3 : Fin 8) q (r2_8.emb (ix2 u q)) ?_ ?_ ?_ ?_
  · exact Fin.ext (by show 3 + 1 * u.val = 3; omega)
  · exact Fin.ext (by show 0 + 1 * q.val = q.val; omega)
  · intro r h; rw [View.ld_unit_zero (S := S2048x128) hz2]
  · intro j h
    show x1 (r2_7.idx (ix3 (0 : Fin 1) j h)) = x1 (ix3 (3 : Fin 8) j h)
    refine congrArg x1 (funext fun b => Fin.ext ?_)
    match b with
    | ⟨0, _⟩ => show 3 + 1 * 0 = 3; omega
    | ⟨1, _⟩ => show 0 + 1 * j.val = j.val; omega
    | ⟨2, _⟩ => show 0 + 1 * h.val = h.val; omega

/-- The store into row 2 of the block: document 2 of the point's eight against every query. -/
theorem piece2 (hf : DocPay (fun d qv => k2_pay7 (F := Ideal) (k2_pay6 d qv))) (x0 : Vec Ideal S2048x128 .bf16) (x1 : Vec Ideal S8x512x128 .bf16)
    (x : r2_6.shape.Idx) :
    k2_pay7 (F := Ideal) (k2_pay6 (View.ld x1 r2_5) (View.ld x0 r2_1)) x = blkScore x0 x1 (r2_6.emb x) := by
  obtain ⟨u, q, rfl⟩ : ∃ (u : Fin 1) (q : Fin 64), x = ix2 u q := ⟨x 0, x 1, eq_ix2 x⟩
  refine (hf (View.ld x1 r2_5) (View.ld x0 r2_1) u q).trans ?_
  have hu : u.val = 0 := by have := u.isLt; omega
  refine docScore_eq_blk x0 x1 (View.ld x0 r2_1) (View.ld x1 r2_5) (2 : Fin 8) q (r2_6.emb (ix2 u q)) ?_ ?_ ?_ ?_
  · exact Fin.ext (by show 2 + 1 * u.val = 2; omega)
  · exact Fin.ext (by show 0 + 1 * q.val = q.val; omega)
  · intro r h; rw [View.ld_unit_zero (S := S2048x128) hz2]
  · intro j h
    show x1 (r2_5.idx (ix3 (0 : Fin 1) j h)) = x1 (ix3 (2 : Fin 8) j h)
    refine congrArg x1 (funext fun b => Fin.ext ?_)
    match b with
    | ⟨0, _⟩ => show 2 + 1 * 0 = 2; omega
    | ⟨1, _⟩ => show 0 + 1 * j.val = j.val; omega
    | ⟨2, _⟩ => show 0 + 1 * h.val = h.val; omega

/-- The store into row 1 of the block: document 1 of the point's eight against every query. -/
theorem piece1 (hf : DocPay (fun d qv => k2_pay5 (F := Ideal) d qv)) (x0 : Vec Ideal S2048x128 .bf16) (x1 : Vec Ideal S8x512x128 .bf16)
    (x : r2_4.shape.Idx) :
    k2_pay5 (F := Ideal) (View.ld x1 r2_3) (View.ld x0 r2_1) x = blkScore x0 x1 (r2_4.emb x) := by
  obtain ⟨u, q, rfl⟩ : ∃ (u : Fin 1) (q : Fin 64), x = ix2 u q := ⟨x 0, x 1, eq_ix2 x⟩
  refine (hf (View.ld x1 r2_3) (View.ld x0 r2_1) u q).trans ?_
  have hu : u.val = 0 := by have := u.isLt; omega
  refine docScore_eq_blk x0 x1 (View.ld x0 r2_1) (View.ld x1 r2_3) (1 : Fin 8) q (r2_4.emb (ix2 u q)) ?_ ?_ ?_ ?_
  · exact Fin.ext (by show 1 + 1 * u.val = 1; omega)
  · exact Fin.ext (by show 0 + 1 * q.val = q.val; omega)
  · intro r h; rw [View.ld_unit_zero (S := S2048x128) hz2]
  · intro j h
    show x1 (r2_3.idx (ix3 (0 : Fin 1) j h)) = x1 (ix3 (1 : Fin 8) j h)
    refine congrArg x1 (funext fun b => Fin.ext ?_)
    match b with
    | ⟨0, _⟩ => show 1 + 1 * 0 = 1; omega
    | ⟨1, _⟩ => show 0 + 1 * j.val = j.val; omega
    | ⟨2, _⟩ => show 0 + 1 * h.val = h.val; omega

/-- The store into row 0 of the block: document 0 of the point's eight against every query. -/
theorem piece0 (hf : DocPay (fun d qv => k2_pay4 (F := Ideal) d qv)) (x0 : Vec Ideal S2048x128 .bf16) (x1 : Vec Ideal S8x512x128 .bf16)
    (x : r2_2.shape.Idx) :
    k2_pay4 (F := Ideal) (View.ld x1 r2_0) (View.ld x0 r2_1) x = blkScore x0 x1 (r2_2.emb x) := by
  obtain ⟨u, q, rfl⟩ : ∃ (u : Fin 1) (q : Fin 64), x = ix2 u q := ⟨x 0, x 1, eq_ix2 x⟩
  refine (hf (View.ld x1 r2_0) (View.ld x0 r2_1) u q).trans ?_
  have hu : u.val = 0 := by have := u.isLt; omega
  refine docScore_eq_blk x0 x1 (View.ld x0 r2_1) (View.ld x1 r2_0) (0 : Fin 8) q (r2_2.emb (ix2 u q)) ?_ ?_ ?_ ?_
  · exact Fin.ext (by show 0 + 1 * u.val = 0; omega)
  · exact Fin.ext (by show 0 + 1 * q.val = q.val; omega)
  · intro r h; rw [View.ld_unit_zero (S := S2048x128) hz2]
  · intro j h
    show x1 (r2_0.idx (ix3 (0 : Fin 1) j h)) = x1 (ix3 (0 : Fin 8) j h)
    refine congrArg x1 (funext fun b => Fin.ext ?_)
    match b with
    | ⟨0, _⟩ => show 0 + 1 * 0 = 0; omega
    | ⟨1, _⟩ => show 0 + 1 * j.val = j.val; omega
    | ⟨2, _⟩ => show 0 + 1 * h.val = h.val; omega

/-- What the body leaves in the result block, at every entry: the eight documents' scores. -/
theorem out_apply (h_k2_pay3 : DocPay (fun d qv => k2_pay3 (F := Ideal) d qv))
    (h_k2_pay2 : DocPay (fun d qv => k2_pay2 (F := Ideal) d qv))
    (h_k2_pay1_10_11 : DocPay (fun d qv => k2_pay1 (F := Ideal) (k2_pay10 d) (k2_pay11 qv)))
    (h_k2_pay9 : DocPay (fun d qv => k2_pay9 (F := Ideal) d qv))
    (h_k2_pay8 : DocPay (fun d qv => k2_pay8 (F := Ideal) d qv))
    (h_k2_pay7_6 : DocPay (fun d qv => k2_pay7 (F := Ideal) (k2_pay6 d qv)))
    (h_k2_pay5 : DocPay (fun d qv => k2_pay5 (F := Ideal) d qv))
    (h_k2_pay4 : DocPay (fun d qv => k2_pay4 (F := Ideal) d qv))
    (x0 : Vec Ideal S2048x128 .bf16) (x1 : Vec Ideal S8x512x128 .bf16) (y : S8x64.Idx) :
    out2_2 (F := Ideal) x0 x1 y = blkScore x0 x1 y := by
  unfold out2_2
  refine View.canon_apply_of_pieces (Val := Elt Ideal) (blkScore x0 x1 : S8x64.Idx → Elt Ideal .f32) _ ?_ y (cover2_2 _ _ _ _ _ _ _ _ y)
  intro p hp x
  simp only [List.mem_cons, List.not_mem_nil, or_false] at hp
  rcases hp with rfl | rfl | rfl | rfl | rfl | rfl | rfl | rfl
  · exact piece7 h_k2_pay3 x0 x1 x
  · exact piece6 h_k2_pay2 x0 x1 x
  · exact piece5 h_k2_pay1_10_11 x0 x1 x
  · exact piece4 h_k2_pay9 x0 x1 x
  · exact piece3 h_k2_pay8 x0 x1 x
  · exact piece2 h_k2_pay7_6 x0 x1 x
  · exact piece1 h_k2_pay5 x0 x1 x
  · exact piece0 h_k2_pay4 x0 x1 x

/-- The query rows' window holds the whole query array at every point. -/
theorem qblk (c : Dev nD) (t : Fin cfg2.N) (r : Fin 2048) (h : Fin 128) :
    (iblk2 V c 0 t : Vec Ideal S2048x128 .bf16) (ix2 r h) = (V c main_v2 : S2048x128.Idx → EReal) (ix2 r h) := by
  obtain ⟨e0, e1, -, -, -, -, -⟩ := idx t
  unfold iblk2
  rw [View.read_apply]
  show (V c main_v2 : S2048x128.Idx → EReal) _ = _
  refine congrArg _ ?_
  funext a
  apply Fin.ext
  match a with
  | ⟨0, _⟩ => show win2_0.index t (0 : Fin 2) * 2048 + 1 * r.val = r.val; rw [e0]; omega
  | ⟨1, _⟩ => show win2_0.index t (1 : Fin 2) * 128 + 1 * h.val = h.val; rw [e1]; omega

/-- The document rows' window at point t holds documents 8·t … 8·t + 7. -/
theorem dblk (c : Dev nD) (t : Fin cfg2.N) (a : Fin 8) (j : Fin 512) (h : Fin 128) (p : Fin 64) (hp : p.val = t.val * 8 + a.val) :
    (iblk2 V c 1 t : Vec Ideal S8x512x128 .bf16) (ix3 a j h) = (V c main_v4 : S64x512x128.Idx → EReal) (ix3 p j h) := by
  obtain ⟨-, -, e2, e3, e4, -, -⟩ := idx t
  unfold iblk2
  rw [View.read_apply]
  show (V c main_v4 : S64x512x128.Idx → EReal) _ = _
  refine congrArg _ ?_
  funext b
  apply Fin.ext
  match b with
  | ⟨0, _⟩ => show win2_1.index t (0 : Fin 3) * 8 + 1 * a.val = p.val; rw [e2, hp]; omega
  | ⟨1, _⟩ => show win2_1.index t (1 : Fin 3) * 512 + 1 * j.val = j.val; rw [e3]; omega
  | ⟨2, _⟩ => show win2_1.index t (2 : Fin 3) * 128 + 1 * h.val = h.val; rw [e4]; omega

/-- Row a of a block of eight documents is document p's row of the pair scores, when the block holds p's rows. -/
theorem blk_eq_pair (Qb Q : S2048x128.Idx → EReal) (Db : S8x512x128.Idx → EReal) (D : S64x512x128.Idx → EReal)
    (a : Fin 8) (q p : Fin 64) (y : S64x64.Idx) (hy0 : y 0 = p) (hy1 : y 1 = q)
    (hQ : ∀ (r : Fin 2048) (h : Fin 128), Qb (ix2 r h) = Q (ix2 r h))
    (hD : ∀ (j : Fin 512) (h : Fin 128), Db (ix3 a j h) = D (ix3 p j h)) :
    blkScore Qb Db (ix2 a q) = Cert.MaxSim.pairScores Q D y := by
  unfold blkScore Cert.MaxSim.pairScores Cert.MaxSim.pairScore
  rw [hy0, hy1]
  show (∑ i : Fin 32, (Finset.univ : Finset (Fin 512)).fold max Cert.MaxSim.negInf
    (fun j => ∑ h : Fin 128, Qb (ix2 (Cert.MaxSim.qrow q i) h) * Db (ix3 a j h))) = _
  simp only [hQ, hD]

/-- What point t writes back is rows 8·t … 8·t + 7 of the pair scores of the scaled rows the region finds. -/
theorem flushed_eq (h_k2_pay3 : DocPay (fun d qv => k2_pay3 (F := Ideal) d qv))
    (h_k2_pay2 : DocPay (fun d qv => k2_pay2 (F := Ideal) d qv))
    (h_k2_pay1_10_11 : DocPay (fun d qv => k2_pay1 (F := Ideal) (k2_pay10 d) (k2_pay11 qv)))
    (h_k2_pay9 : DocPay (fun d qv => k2_pay9 (F := Ideal) d qv))
    (h_k2_pay8 : DocPay (fun d qv => k2_pay8 (F := Ideal) d qv))
    (h_k2_pay7_6 : DocPay (fun d qv => k2_pay7 (F := Ideal) (k2_pay6 d qv)))
    (h_k2_pay5 : DocPay (fun d qv => k2_pay5 (F := Ideal) d qv))
    (h_k2_pay4 : DocPay (fun d qv => k2_pay4 (F := Ideal) d qv))
    (c : Dev nD) (t : Fin cfg2.N) :
    (dat2 V c).flushed 2 t = ((cfg2.win 2).blk t).view.read (Elt Ideal)
      (Cert.MaxSim.pairScores (V c main_v2 : S2048x128.Idx → EReal) (V c main_v4 : S64x512x128.Idx → EReal)) := by
  show (cfg2.win 2).cut (grid2.coords t) ((dat2 V c).after 2 t) = _
  rw [after2_2]
  obtain ⟨-, -, -, -, -, e5, e6⟩ := idx t
  funext j
  obtain ⟨a, q, rfl⟩ : ∃ (a : Fin 8) (q : Fin 64), j = ix2 a q := ⟨j 0, j 1, eq_ix2 j⟩
  show out2_2 (F := Ideal) (iblk2 V c 0 t) (iblk2 V c 1 t) (ix2 a q)
    = Cert.MaxSim.pairScores (V c main_v2 : S2048x128.Idx → EReal) (V c main_v4 : S64x512x128.Idx → EReal) (((cfg2.win 2).blk t).view.emb (ix2 a q))
  refine (out_apply h_k2_pay3 h_k2_pay2 h_k2_pay1_10_11 h_k2_pay9 h_k2_pay8 h_k2_pay7_6 h_k2_pay5 h_k2_pay4 (iblk2 V c 0 t) (iblk2 V c 1 t) (ix2 a q)).trans ?_
  have ht : t.val < 8 := lt_of_lt_of_eq t.isLt N_2
  have hp : t.val * 8 + a.val < 64 := by have := a.isLt; omega
  refine blk_eq_pair _ _ _ _ a q ⟨t.val * 8 + a.val, hp⟩ _ (Fin.ext ?_) (Fin.ext ?_) (fun r h => qblk V c t r h)
    (fun j h => dblk V c t a j h _ rfl)
  · show win2_2.index t (0 : Fin 2) * 8 + 1 * a.val = t.val * 8 + a.val; rw [e5]; omega
  · show win2_2.index t (1 : Fin 2) * 64 + 1 * q.val = q.val; rw [e6]; omega

/-- An index of the array is in point t's block iff each coordinate is in the block's range on its axis. -/
theorem mem_blk (t : Fin cfg2.N) (i : S64x64.Idx) :
    i ∈ ((cfg2.win 2).blk t).view.set ↔ ∀ a : Fin 2, win2_2.index t a * S8x64.size a ≤ (i a).val ∧ (i a).val < win2_2.index t a * S8x64.size a + S8x64.size a := by
  show i ∈ ((View.whole main_v5).slice (win2_2.rect t)).set ↔ _
  rw [View.set_slice_whole, Rect.mem_set_unit]
  exact Iff.rfl

/-- The eight row blocks tile the [64, 64] array (document p lies in block p / 8), so after the region it holds every
    document's score against every query. -/
theorem final (h_k2_pay3 : DocPay (fun d qv => k2_pay3 (F := Ideal) d qv))
    (h_k2_pay2 : DocPay (fun d qv => k2_pay2 (F := Ideal) d qv))
    (h_k2_pay1_10_11 : DocPay (fun d qv => k2_pay1 (F := Ideal) (k2_pay10 d) (k2_pay11 qv)))
    (h_k2_pay9 : DocPay (fun d qv => k2_pay9 (F := Ideal) d qv))
    (h_k2_pay8 : DocPay (fun d qv => k2_pay8 (F := Ideal) d qv))
    (h_k2_pay7_6 : DocPay (fun d qv => k2_pay7 (F := Ideal) (k2_pay6 d qv)))
    (h_k2_pay5 : DocPay (fun d qv => k2_pay5 (F := Ideal) d qv))
    (h_k2_pay4 : DocPay (fun d qv => k2_pay4 (F := Ideal) d qv))
    (c : Dev nD) :
    (dat2 V c).arrAt 2 cfg2.N
      = Cert.MaxSim.pairScores (V c main_v2 : S2048x128.Idx → EReal) (V c main_v4 : S64x512x128.Idx → EReal) :=
  (dat2 V c).arrAt_eq_of_cover 2 _ (fun t _ => flushed_eq V h_k2_pay3 h_k2_pay2 h_k2_pay1_10_11 h_k2_pay9 h_k2_pay8 h_k2_pay7_6 h_k2_pay5 h_k2_pay4 c t) fun i => by
    have h0 : (i 0).val < 64 := (i 0).isLt
    have h1 : (i 1).val < 64 := (i 1).isLt
    refine ⟨⟨(i 0).val / 8, by rw [show cfg2.N = 8 from N_2]; omega⟩, flush2_2 _, ?_⟩
    rw [mem_blk]
    obtain ⟨-, -, -, -, -, e5, e6⟩ := idx ⟨(i 0).val / 8, by rw [show cfg2.N = 8 from N_2]; omega⟩
    intro a
    match a with
    | ⟨0, _⟩ =>
      show win2_2.index _ (0 : Fin 2) * 8 ≤ (i 0).val ∧ (i 0).val < win2_2.index _ (0 : Fin 2) * 8 + 8
      rw [e5]; show (i 0).val / 8 * 8 ≤ (i 0).val ∧ (i 0).val < (i 0).val / 8 * 8 + 8; omega
    | ⟨1, _⟩ =>
      show win2_2.index _ (1 : Fin 2) * 64 ≤ (i 1).val ∧ (i 1).val < win2_2.index _ (1 : Fin 2) * 64 + 64
      rw [e6]; omega

end Cert.KernelIdeal.Pairs

end
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payloads.lean ====
/-
  The idealized kernel's store payloads, read at an index, are the specification's functions.

  The projection payload: a row of the [2048, 768] block against the 128 weight rows, both contracted on their last
  axis, gives P[r, h] = Σ_k x[r, k] · w[h, k] (the format changes and the same-shape cast are the identity on the
  extended reals); the lane sum of P · P over the 128 columns, viewed as a column, rooted, floored by the constant
  word and broadcast back across the columns, divides P: the unit-length scaling of the row.

  The score payloads: the [2048, 128] query rows against the 512 document rows give S[r, j] = Σ_h Q[r, h] · D[j, h];
  row q · 32 + i of that product is entry (q, i, j) of its [64, 32, 512] view; the maximum over j from −∞, then the
  sum over i from 0, then the row view [1, 64], is the document's score against query q.
-/
import proofs.«150726_j1288490189594_1_alg».proof.Proof.Gen.KernelIdeal.Skeleton
import proofs.«150726_j1288490189594_1_alg».proof.Proof.Spec
import proofs.«150726_j1288490189594_1_alg».proof.Proof.LibTransposedRhsDot
import proofs.«150726_j1288490189594_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx

/-! ## The projection and its unit-length scaling -/

/-- The program's first contraction record is the last-axis contraction of a [2048, 768] and a [128, 768] operand. -/
theorem dot0_eq : dot_S2048x768_S128x768_S2048x128_1_1_0_0_n_n = DotDims.transposedRhs 2048 768 128 := rfl

/-- The program's second contraction record is the last-axis contraction of a [2048, 128] and a [512, 128] operand. -/
theorem dot2_eq : dot_S2048x128_S512x128_S2048x512_1_1_0_0_n_n = DotDims.transposedRhs 2048 128 512 := rfl

/-- The column index inserted into a row index of the [2048, 128] block. -/
theorem lift_row (r : Fin 2048) (k : Fin 128) : reduces_S2048x128_S2048.lift (ix1 r) k = ix2 r k := by
  funext a
  refine Fin.ext ?_
  match a with
  | ⟨0, _⟩ => rfl
  | ⟨1, _⟩ => rfl

/-- The scaling chain over any [2048, 128] block P: at (r, h) it is P[r, h] over the floored root of row r's sum of squares. -/
theorem scale_apply (P : FVec Ideal S2048x128 .f32) (r : Fin 2048) (h : Fin 128) :
    (truncf .bf16 (divf P (broadcastTo S2048x128 (maximumf (sqrt (shapeCast S2048x1
        (multiReduction .add [1] S2048 (mulf P P) 0x00000000#32 reduces_S2048x128_S2048 (.inl rfl) rfl) shapeCasts_S2048_S2048x1))
        (broadcast S2048x1 (Scalar.ofBits .f32 0x2B8CBCCC#32))) broadcasts_S2048x1_S2048x128)) bitsLt_bf16_f32
        : FVec Ideal S2048x128 .bf16) (ix2 r h)
      = Cert.MaxSim.scaled (fun h' => P (ix2 r h')) h := by
  rw [truncf_apply, divf_apply, Cert.Keepdims.broadcastTo_a1_ab_apply, maximumf_apply]
  have hsum : multiReduction .add [1] S2048 (mulf P P) 0x00000000#32 reduces_S2048x128_S2048 (.inl rfl) rfl (ix1 r)
      = ∑ k : Fin 128, P (ix2 r k) * P (ix2 r k) :=
    (Ideal.multiReduction_add_single (mulf P P) 0x00000000#32 reduces_S2048x128_S2048 (.inl rfl) rfl (ix1 r)).trans
      (Finset.sum_congr rfl fun k _ => congrArg (mulf P P) (lift_row r k))
  show Ideal.div (P (ix2 r h)) (max (Ideal.sqrt (shapeCast S2048x1
        (multiReduction .add [1] S2048 (mulf P P) 0x00000000#32 reduces_S2048x128_S2048 (.inl rfl) rfl) shapeCasts_S2048_S2048x1
        (ix2 r (0 : Fin 1)))) (Ideal.ofBits .f32 0x2B8CBCCC#32)) = _
  rw [Cert.Keepdims.shapeCast_a_a1_apply, hsum]
  rfl

/-- The product into the zero block, at (r, h): row r of the block against weight row h. -/
theorem proj_apply (x : Vec Ideal S2048x768 .f32) (w : Vec Ideal S128x768 .f32) (r : Fin 2048) (h : Fin 128) :
    (matmul dot_S2048x768_S128x768_S2048x128_1_1_0_0_n_n none
      (truncf .bf16 (shapeCast S2048x768 x shapeCasts_S2048x768_S2048x768) bitsLt_bf16_f32 : FVec Ideal S2048x768 .bf16)
      (truncf .bf16 w bitsLt_bf16_f32 : FVec Ideal S128x768 .bf16)
      (constant S2048x128 .f32 0x00000000#32)) (ix2 r h) = Cert.MaxSim.proj2 x w r h := by
  refine (TransposedRhsDot.matmul_zero_apply _ dot0_eq none _ _ (ix2 r h)).trans ?_
  rw [shapeCast_self]
  rfl

/-- The first projection payload at (r, h): the unit-length projection of row r at h. -/
theorem k0_pay1_apply (x : Vec Ideal S2048x768 .f32) (w : Vec Ideal S128x768 .f32) (r : Fin 2048) (h : Fin 128) :
    k0_pay1 (F := Ideal) x w (ix2 r h) = Cert.MaxSim.unit2 x w r h := by
  refine (scale_apply (matmul dot_S2048x768_S128x768_S2048x128_1_1_0_0_n_n none
      (truncf .bf16 (shapeCast S2048x768 x shapeCasts_S2048x768_S2048x768) bitsLt_bf16_f32 : FVec Ideal S2048x768 .bf16)
      (truncf .bf16 w bitsLt_bf16_f32 : FVec Ideal S128x768 .bf16)
      (constant S2048x128 .f32 0x00000000#32)) r h).trans ?_
  unfold Cert.MaxSim.unit2
  exact congrArg (fun P => Cert.MaxSim.scaled P h) (funext fun h' => proj_apply x w r h')

/-- The second projection payload is the same text. -/
theorem k1_pay1_apply (x : Vec Ideal S2048x768 .f32) (w : Vec Ideal S128x768 .f32) (r : Fin 2048) (h : Fin 128) :
    k1_pay1 (F := Ideal) x w (ix2 r h) = Cert.MaxSim.unit2 x w r h :=
  k0_pay1_apply x w r h

/-! ## The scores -/

/-- The product into the zero block, at (r, j): query row r against document row j. -/
theorem prod_apply (Q : FVec Ideal S2048x128 .bf16) (D : FVec Ideal S512x128 .bf16) (r : Fin 2048) (j : Fin 512) :
    (matmul dot_S2048x128_S512x128_S2048x512_1_1_0_0_n_n none Q D (constant S2048x512 .f32 0x00000000#32)) (ix2 r j)
      = ∑ h : Fin 128, Q (ix2 r h) * D (ix2 j h) :=
  TransposedRhsDot.matmul_zero_apply _ dot2_eq none Q D (ix2 r j)

/-- Entry (q, i, j) of the [64, 32, 512] view of a [2048, 512] block is its entry (q · 32 + i, j). -/
theorem view3_apply {α : Type} (v : S2048x512.Idx → α) (q : Fin 64) (i : Fin 32) (j : Fin 512) :
    shapeCast S64x32x512 v shapeCasts_S2048x512_S64x32x512 (ix3 q i j) = v (ix2 (Cert.MaxSim.qrow q i) j) :=
  shapeCast_apply v _ _ _ (by
    rw [Shape.rowMajor_val_two, Shape.rowMajor_val_three]
    rfl)

/-- The document-token index inserted into a (query, token) index. -/
theorem lift_tok (q : Fin 64) (i : Fin 32) (j : Fin 512) : reduces_S64x32x512_S64x32.lift (ix2 q i) j = ix3 q i j := by
  funext a
  refine Fin.ext ?_
  match a with
  | ⟨0, _⟩ => rfl
  | ⟨1, _⟩ => rfl
  | ⟨2, _⟩ => rfl

/-- The query-token index inserted into a query index. -/
theorem lift_qry (q : Fin 64) (i : Fin 32) : reduces_S64x32_S64.lift (ix1 q) i = ix2 q i := by
  funext a
  refine Fin.ext ?_
  match a with
  | ⟨0, _⟩ => rfl
  | ⟨1, _⟩ => rfl

/-- The maximum over the last axis from −∞, at (q, i): the fold of max over the 512 document tokens. -/
theorem rowmax_apply (v : FVec Ideal S64x32x512 .f32) (q : Fin 64) (i : Fin 32) :
    multiReduction .maximumf [2] S64x32 v 0xFF800000#32 reduces_S64x32x512_S64x32 (.inl rfl) rfl (ix2 q i)
      = (Finset.univ : Finset (Fin 512)).fold max Cert.MaxSim.negInf (fun j => v (ix3 q i j)) :=
  (Ideal.multiReduction_maximumf_single v 0xFF800000#32 reduces_S64x32x512_S64x32 (.inl rfl) rfl (ix2 q i)).trans
    (congrArg (fun f => Finset.fold max Cert.MaxSim.negInf f (Finset.univ : Finset (Fin 512)))
      (funext fun j => congrArg v (lift_tok q i j)))

/-- The sum over the middle axis from 0, at q: the sum over the 32 query tokens. -/
theorem toksum_apply (m : FVec Ideal S64x32 .f32) (q : Fin 64) :
    multiReduction .add [1] S64 m 0x00000000#32 reduces_S64x32_S64 (.inl rfl) rfl (ix1 q) = ∑ i : Fin 32, m (ix2 q i) :=
  (Ideal.multiReduction_add_single m 0x00000000#32 reduces_S64x32_S64 (.inl rfl) rfl (ix1 q)).trans
    (Finset.sum_congr rfl fun i _ => congrArg m (lift_qry q i))

/-- The score chain over any document block D [512, 128] and query block Q [2048, 128], at (u, q): the sum over query
    q's 32 tokens of the largest inner product against the 512 document rows. -/
theorem chain_apply (D : FVec Ideal S512x128 .bf16) (Q : FVec Ideal S2048x128 .bf16) (u : Fin 1) (q : Fin 64) :
    (shapeCast S1x64 (multiReduction .add [1] S64 (multiReduction .maximumf [2] S64x32
        (shapeCast S64x32x512 (matmul dot_S2048x128_S512x128_S2048x512_1_1_0_0_n_n none Q D (constant S2048x512 .f32 0x00000000#32))
          shapeCasts_S2048x512_S64x32x512)
        0xFF800000#32 reduces_S64x32x512_S64x32 (.inl rfl) rfl) 0x00000000#32 reduces_S64x32_S64 (.inl rfl) rfl)
        shapeCasts_S64_S1x64 : FVec Ideal S1x64 .f32) (ix2 u q)
      = ∑ i : Fin 32, (Finset.univ : Finset (Fin 512)).fold max Cert.MaxSim.negInf
          (fun j => ∑ h : Fin 128, Q (ix2 (Cert.MaxSim.qrow q i) h) * D (ix2 j h)) := by
  refine (shapeCast_a_1a_apply _ _ u q).trans ((toksum_apply _ q).trans (Finset.sum_congr rfl fun i _ => ?_))
  refine (rowmax_apply _ q i).trans ?_
  refine congrArg (fun f => Finset.fold max Cert.MaxSim.negInf f (Finset.univ : Finset (Fin 512))) (funext fun j => ?_)
  exact (view3_apply _ q i j).trans (prod_apply Q D (Cert.MaxSim.qrow q i) j)

/-- The chain with the program's operand views: the [1, 512, 128] document block seen as [512, 128], the query block as itself. -/
theorem full_apply (d : Vec Ideal S1x512x128 .bf16) (qv : Vec Ideal S2048x128 .bf16) (u : Fin 1) (q : Fin 64) :
    (shapeCast S1x64 (multiReduction .add [1] S64 (multiReduction .maximumf [2] S64x32
        (shapeCast S64x32x512 (matmul dot_S2048x128_S512x128_S2048x512_1_1_0_0_n_n none
            (shapeCast S2048x128 qv shapeCasts_S2048x128_S2048x128 : FVec Ideal S2048x128 .bf16)
            (shapeCast S512x128 d shapeCasts_S1x512x128_S512x128 : FVec Ideal S512x128 .bf16)
            (constant S2048x512 .f32 0x00000000#32))
          shapeCasts_S2048x512_S64x32x512)
        0xFF800000#32 reduces_S64x32x512_S64x32 (.inl rfl) rfl) 0x00000000#32 reduces_S64x32_S64 (.inl rfl) rfl)
        shapeCasts_S64_S1x64 : FVec Ideal S1x64 .f32) (ix2 u q)
      = Cert.MaxSim.docScore qv d q := by
  refine (chain_apply _ _ u q).trans ?_
  unfold Cert.MaxSim.docScore
  refine Finset.sum_congr rfl fun i _ => ?_
  refine congrArg (fun f => Finset.fold max Cert.MaxSim.negInf f (Finset.univ : Finset (Fin 512))) (funext fun j => ?_)
  refine Finset.sum_congr rfl fun h _ => ?_
  rw [shapeCast_self, shapeCast_1ab_ab_apply]

/-- Each score payload is the chain with the program's operand views, up to the names of its variables. -/
theorem k2_pay4_apply (d : Vec Ideal S1x512x128 .bf16) (qv : Vec Ideal S2048x128 .bf16) (u : Fin 1) (q : Fin 64) :
    k2_pay4 (F := Ideal) d qv (ix2 u q) = Cert.MaxSim.docScore qv d q := full_apply d qv u q
theorem k2_pay5_apply (d : Vec Ideal S1x512x128 .bf16) (qv : Vec Ideal S2048x128 .bf16) (u : Fin 1) (q : Fin 64) :
    k2_pay5 (F := Ideal) d qv (ix2 u q) = Cert.MaxSim.docScore qv d q := full_apply d qv u q
theorem k2_pay8_apply (d : Vec Ideal S1x512x128 .bf16) (qv : Vec Ideal S2048x128 .bf16) (u : Fin 1) (q : Fin 64) :
    k2_pay8 (F := Ideal) d qv (ix2 u q) = Cert.MaxSim.docScore qv d q := full_apply d qv u q
theorem k2_pay9_apply (d : Vec Ideal S1x512x128 .bf16) (qv : Vec Ideal S2048x128 .bf16) (u : Fin 1) (q : Fin 64) :
    k2_pay9 (F := Ideal) d qv (ix2 u q) = Cert.MaxSim.docScore qv d q := full_apply d qv u q
theorem k2_pay2_apply (d : Vec Ideal S1x512x128 .bf16) (qv : Vec Ideal S2048x128 .bf16) (u : Fin 1) (q : Fin 64) :
    k2_pay2 (F := Ideal) d qv (ix2 u q) = Cert.MaxSim.docScore qv d q := full_apply d qv u q
theorem k2_pay3_apply (d : Vec Ideal S1x512x128 .bf16) (qv : Vec Ideal S2048x128 .bf16) (u : Fin 1) (q : Fin 64) :
    k2_pay3 (F := Ideal) d qv (ix2 u q) = Cert.MaxSim.docScore qv d q := full_apply d qv u q
/-- The payload carried across the split: the maximum block computed first, summed and viewed as a row afterwards. -/
theorem k2_pay7_6_apply (d : Vec Ideal S1x512x128 .bf16) (qv : Vec Ideal S2048x128 .bf16) (u : Fin 1) (q : Fin 64) :
    k2_pay7 (F := Ideal) (k2_pay6 d qv) (ix2 u q) = Cert.MaxSim.docScore qv d q := full_apply d qv u q
/-- The payload whose two operand views are carried across the split. -/
theorem k2_pay1_10_11_apply (d : Vec Ideal S1x512x128 .bf16) (qv : Vec Ideal S2048x128 .bf16) (u : Fin 1) (q : Fin 64) :
    k2_pay1 (F := Ideal) (k2_pay10 d) (k2_pay11 qv) (ix2 u q) = Cert.MaxSim.docScore qv d q := full_apply d qv u q

end Cert.KernelIdeal.Payloads

end
-- ==== Proof.KValue.lean ====
import proofs.«150726_j1288490189594_1_alg».proof.Proof.Gen.KernelIdeal.Frame
import proofs.«150726_j1288490189594_1_alg».proof.Proof.Spec
import Idealize.ShloMosaic.Lib.Pipeline.Value
import proofs.«150726_j1288490189594_1_alg».proof.Proof.KRun
import proofs.«150726_j1288490189594_1_alg».proof.Proof.Rows0
import proofs.«150726_j1288490189594_1_alg».proof.Proof.Rows1
import proofs.«150726_j1288490189594_1_alg».proof.Proof.Pairs
import proofs.«150726_j1288490189594_1_alg».proof.Proof.Payloads
import Idealize.ShloMosaic.Lib.StableHlo.Run
import Idealize.ShloMosaic.Lib.ValueLayout
set_option maxRecDepth 16384

noncomputable section

open Idealize.ShloMosaic Idealize.ShloMosaic.TcCoe Idealize.SL.Sem Idealize.ShloMosaic.ValueIdx
open Idealize.ShloMosaic.Pipeline (Dat)

/-
  The idealized kernel's result, as one function of its three inputs.

  @main reshapes the query and document tokens to flat rows, scales the projections of the query rows (one block)
  and of the document rows (sixteen blocks of 2048), reshapes the scaled document rows back to [64, 512, 128], scores
  every document against every query (eight documents a point) and transposes the [documents, queries] array. Walking
  the contents at each boundary back to the launch memory: the flat rows are the tokens renumbered (row b·L + l is
  token (b, l)), so the scaled flat rows are the tokens' unit-length projections, the pair scores are the scores, and
  the transpose puts the query first.
-/
namespace Cert.KernelIdeal.KValue

open Cert.KernelIdeal Cert.KernelIdeal.Gen Idealize.ShloMosaic.StableHlo

variable (m : (ℓ : Loc nD τ sig) → Buf (Elt Ideal) ℓ) (ρ : Dev nD → PrngReg)

/-! ## Before the first region -/

/-- The flat query rows are the query tokens reshaped. -/
theorem W1_v0 (c : Dev nD) : (W1 m ρ c (Proc.devRef .tc main_v0) : S2048x768.Idx → EReal)
    = shapeCast S2048x768 (m ((c : Thread nD τ).loc main_arg0) : S64x32x768.Idx → EReal) shapeCasts_S64x32x768_S2048x768 := by
  show StableHlo.after hostOps0 (W0 m ρ c) (Proc.devRef .tc main_v0) = _
  after_results
  rfl

/-- The flat document rows are the document tokens reshaped. -/
theorem W1_v1 (c : Dev nD) : (W1 m ρ c (Proc.devRef .tc main_v1) : S32768x768.Idx → EReal)
    = shapeCast S32768x768 (m ((c : Thread nD τ).loc main_arg1) : S64x512x768.Idx → EReal) shapeCasts_S64x512x768_S32768x768 := by
  show StableHlo.after hostOps0 (W0 m ρ c) (Proc.devRef .tc main_v1) = _
  after_results
  rfl

/-- The weight is as launched. -/
theorem W1_arg2 (c : Dev nD) : W1 m ρ c (Proc.devRef .tc main_arg2) = m ((c : Thread nD τ).loc main_arg2) := by
  show StableHlo.after hostOps0 (W0 m ρ c) (Proc.devRef .tc main_arg2) = _
  after_results

/-! ## After the query rows are scaled -/

theorem W2_v2 (c : Dev nD) : (W2 m ρ c (Proc.devRef .tc main_v2) : S2048x128.Idx → EReal)
    = Cert.MaxSim.unitRows (W1 m ρ c (Proc.devRef .tc main_v0) : S2048x768.Idx → EReal) (W1 m ρ c (Proc.devRef .tc main_arg2) : S128x768.Idx → EReal) :=
  (W2_arr m ρ c 2).trans (Rows0.final (V1 m ρ) Payloads.k0_pay1_apply c)

theorem W2_v1 (c : Dev nD) : W2 m ρ c (Proc.devRef .tc main_v1) = W1 m ρ c (Proc.devRef .tc main_v1) :=
  W2_of_ne m ρ c main_v1 (by decide)

theorem W2_arg2 (c : Dev nD) : W2 m ρ c (Proc.devRef .tc main_arg2) = W1 m ρ c (Proc.devRef .tc main_arg2) :=
  (W2_arr m ρ c 1).trans (((dat0 (V1 m ρ) c).arrAt_in 1 rfl _).trans (A_eq0 (V1 m ρ) c 1))

/-! ## After the document rows are scaled -/

theorem W3_v3 (c : Dev nD) : (W3 m ρ c (Proc.devRef .tc main_v3) : S32768x128.Idx → EReal)
    = Cert.MaxSim.unitRows (W2 m ρ c (Proc.devRef .tc main_v1) : S32768x768.Idx → EReal) (W2 m ρ c (Proc.devRef .tc main_arg2) : S128x768.Idx → EReal) :=
  (W3_arr m ρ c 2).trans (Rows1.final (V2 m ρ) Payloads.k1_pay1_apply c)

theorem W3_v2 (c : Dev nD) : W3 m ρ c (Proc.devRef .tc main_v2) = W2 m ρ c (Proc.devRef .tc main_v2) :=
  W3_of_ne m ρ c main_v2 (by decide)

/-! ## Before the scoring region -/

theorem W4_v4 (c : Dev nD) : (W4 m ρ c (Proc.devRef .tc main_v4) : S64x512x128.Idx → EReal)
    = shapeCast S64x512x128 (W3 m ρ c (Proc.devRef .tc main_v3) : S32768x128.Idx → EReal) shapeCasts_S32768x128_S64x512x128 := by
  show StableHlo.after hostOps2 (W3 m ρ c) (Proc.devRef .tc main_v4) = _
  after_results
  rfl

theorem W4_v2 (c : Dev nD) : W4 m ρ c (Proc.devRef .tc main_v2) = W3 m ρ c (Proc.devRef .tc main_v2) := by
  show StableHlo.after hostOps2 (W3 m ρ c) (Proc.devRef .tc main_v2) = _
  after_results

/-! ## After the scoring region, and the transpose -/

theorem W5_v5 (c : Dev nD) : (W5 m ρ c (Proc.devRef .tc main_v5) : S64x64.Idx → EReal)
    = Cert.MaxSim.pairScores (W4 m ρ c (Proc.devRef .tc main_v2) : S2048x128.Idx → EReal) (W4 m ρ c (Proc.devRef .tc main_v4) : S64x512x128.Idx → EReal) :=
  (W5_arr m ρ c 2).trans (Pairs.final (V4 m ρ) Payloads.k2_pay3_apply Payloads.k2_pay2_apply Payloads.k2_pay1_10_11_apply Payloads.k2_pay9_apply Payloads.k2_pay8_apply Payloads.k2_pay7_6_apply Payloads.k2_pay5_apply Payloads.k2_pay4_apply c)

theorem W6_v6 (c : Dev nD) : (W6 m ρ c (Proc.devRef .tc main_v6) : S64x64.Idx → EReal)
    = transpose S64x64 [1, 0] (W5 m ρ c (Proc.devRef .tc main_v5) : S64x64.Idx → EReal) transposes_S64x64_S64x64_1_0 := by
  show StableHlo.after hostOps3 (W5 m ρ c) (Proc.devRef .tc main_v6) = _
  after_results

/-! ## The rows are the tokens -/

/-- Flat query row q·32 + i is query token (q, i). -/
theorem qrows (x : S64x32x768.Idx → EReal) (q : Fin 64) (i : Fin 32) (k : Fin 768) :
    shapeCast S2048x768 x shapeCasts_S64x32x768_S2048x768 (ix2 (Cert.MaxSim.qrow q i) k) = x (ix3 q i k) :=
  shapeCast_apply x _ _ _ (by
    rw [Shape.rowMajor_val_two, Shape.rowMajor_val_three]
    show (q.val * 32 + i.val) * 768 + k.val = (q.val * 32 + i.val) * 768 + k.val
    rfl)

/-- Flat document row p·512 + j is document token (p, j). -/
theorem prows (x : S64x512x768.Idx → EReal) (p : Fin 64) (j : Fin 512) (k : Fin 768) :
    shapeCast S32768x768 x shapeCasts_S64x512x768_S32768x768 (ix2 (Cert.MaxSim.prow p j) k) = x (ix3 p j k) :=
  shapeCast_apply x _ _ _ (by
    rw [Shape.rowMajor_val_two, Shape.rowMajor_val_three]
    show (p.val * 512 + j.val) * 768 + k.val = (p.val * 512 + j.val) * 768 + k.val
    rfl)

/-- Scaled document token (p, j) is scaled flat row p·512 + j. -/
theorem drows (x : S32768x128.Idx → EReal) (p : Fin 64) (j : Fin 512) (h : Fin 128) :
    shapeCast S64x512x128 x shapeCasts_S32768x128_S64x512x128 (ix3 p j h) = x (ix2 (Cert.MaxSim.prow p j) h) :=
  shapeCast_apply x _ _ _ (by
    rw [Shape.rowMajor_val_two, Shape.rowMajor_val_three]
    show (p.val * 512 + j.val) * 128 + h.val = (p.val * 512 + j.val) * 128 + h.val
    rfl)

/-! ## The result -/

/-- The result array after @main is the scores of the launch contents. -/
theorem result_eq (c : Dev nD) : (W6 m ρ c (Proc.devRef .tc main_v6) : S64x64.Idx → EReal)
    = Cert.MaxSim.scores (m ((c : Thread nD τ).loc main_arg0) : S64x32x768.Idx → EReal)
        (m ((c : Thread nD τ).loc main_arg1) : S64x512x768.Idx → EReal) (m ((c : Thread nD τ).loc main_arg2) : S128x768.Idx → EReal) := by
  funext y
  obtain ⟨q, p, rfl⟩ : ∃ (q p : Fin 64), y = ix2 q p := ⟨y 0, y 1, eq_ix2 y⟩
  rw [W6_v6, transpose_ix2_apply, W5_v5]
  show Cert.MaxSim.pairScore _ _ p q = Cert.MaxSim.score _ _ _ q p
  refine Cert.MaxSim.pairScore_eq_score _ _ _ _ _ (fun q i h => ?_) (fun p j h => ?_) p q
  · rw [W4_v2, W3_v2, W2_v2, W1_v0, W1_arg2]
    exact Cert.MaxSim.unit2_eq_unit3 _ _ _ _ q i h (fun k => qrows _ q i k)
  · rw [W4_v4, drows, W3_v3, W2_v1, W2_arg2, W1_v1, W1_arg2]
    exact Cert.MaxSim.unit2_eq_unit3 _ _ _ _ p j h (fun k => prows _ p j k)

/-! ## The run -/

/-- Every weakly fair execution of the idealized kernel ends with the result array at the scores of the launch
    contents and the argument arrays unchanged. -/
theorem run : θ_run defs (onTc (τ := τ) (main (F := Ideal))) ⟨m, fun _ => 0, ρ⟩ (fun r => ∀ c : Dev nD,
      r.2.mem ((c.tc : Thread nD τ).loc main_v6)
        = Cert.MaxSim.scores (m ((c : Thread nD τ).loc main_arg0) : S64x32x768.Idx → EReal)
            (m ((c : Thread nD τ).loc main_arg1) : S64x512x768.Idx → EReal) (m ((c : Thread nD τ).loc main_arg2) : S128x768.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (KRun.run_named (F := Ideal) m ρ)

end Cert.KernelIdeal.KValue

end
-- ==== Proof.RefScores.lean ====
/-
  The reference program's result is the specification's score array.

  Each stage of the reference is read at an index: the projection is the 768-term sum, the sum of squares over the
  128 projected entries starts from the word of zero (which is 0), the norm's floor is the broadcast constant, the
  quotient is the scaled projection. The pairwise inner products stand as document times query and are commuted under
  the sum; the transpose only renames coordinates; the maximum over the 512 document tokens is the fold of max from
  the word of minus infinity; the last sum starts from 0 again.
-/
import proofs.«150726_j1288490189594_1_alg».proof.Proof.Gen.ReferenceIdeal.Read
import proofs.«150726_j1288490189594_1_alg».proof.Proof.Spec

noncomputable section

namespace Cert.ReferenceIdeal.RefScores

open Cert.ReferenceIdeal Cert.ReferenceIdeal.Read Cert.MaxSim Idealize.ShloMosaic Idealize.ShloMosaic.ValueIdx

/-- The three arguments' types. -/
abbrev X0 : Type := (⟨S64x32x768, .f32⟩ : BufTy).Contents (Elt Ideal)
abbrev X1 : Type := (⟨S64x512x768, .f32⟩ : BufTy).Contents (Elt Ideal)
abbrev X2 : Type := (⟨S128x768, .f32⟩ : BufTy).Contents (Elt Ideal)

/-! ## The query side: stages 0 to 8 -/

/-- The first contraction at (q, i, h) is the projection of token (q, i) onto weight row h. -/
theorem v0_at (x0 : X0) (x2 : X2) (q : Fin 64) (i : Fin 32) (h : Fin 128) :
    val_main_v0 (F := Ideal) x0 x2 (ix3 q i h) = proj3 x0 x2 q i h := by
  rw [val_main_v0_apply]
  unfold proj3
  refine Finset.sum_congr rfl fun k _ => ?_
  have el : lidx_main_v0 (ix3 q i h) k = ix3 q i k :=
    funext fun a => Fin.ext (by match a with | ⟨0, _⟩ => rfl | ⟨1, _⟩ => rfl | ⟨2, _⟩ => rfl)
  have er : ridx_main_v0 (ix3 q i h) k = ix2 h k :=
    funext fun a => Fin.ext (by match a with | ⟨0, _⟩ => rfl | ⟨1, _⟩ => rfl)
  rw [el, er]

/-- The sum of squares at (q, i): it starts from the word of zero, which adds nothing. -/
theorem v2_at (x0 : X0) (x2 : X2) (q : Fin 64) (i : Fin 32) :
    val_main_v2 (F := Ideal) x0 x2 (ix2 q i) = ∑ h : Fin 128, proj3 x0 x2 q i h * proj3 x0 x2 q i h := by
  rw [val_main_v2_apply, val_main_cst_apply, Ideal.ofBits_def, Ideal.ofBits_zero_f32, zero_add]
  refine Finset.sum_congr rfl fun h _ => ?_
  have e : idx_main_v2 (ix2 q i) h = ix3 q i h :=
    funext fun a => Fin.ext (by match a with | ⟨0, _⟩ => rfl | ⟨1, _⟩ => rfl | ⟨2, _⟩ => rfl)
  rw [e, val_main_v1_apply, Ideal.mulf_def, v0_at]

/-- The floored norm at (q, i), kept as a unit last axis. -/
theorem v6_at (x0 : X0) (x2 : X2) (q : Fin 64) (i : Fin 32) :
    val_main_v6 (F := Ideal) x0 x2 (ix3 q i (0 : Fin 1))
      = max (Ideal.sqrt (∑ h : Fin 128, proj3 x0 x2 q i h * proj3 x0 x2 q i h)) floorEps := by
  have e : idx_main_v3 (ix3 q i (0 : Fin 1)) = ix2 q i :=
    funext fun a => Fin.ext (by match a with | ⟨0, _⟩ => rfl | ⟨1, _⟩ => rfl)
  rw [val_main_v6_apply, val_main_v4_apply, val_main_v3_apply, e, v2_at, val_main_v5_apply, val_main_cst_0_apply,
    Ideal.maximumf_def, Ideal.hostUnary_sqrt_def, Ideal.ofBits_def]

/-- The scaled projection of the query tokens: stage 8 at (q, i, h). -/
theorem v8_at (x0 : X0) (x2 : X2) (q : Fin 64) (i : Fin 32) (h : Fin 128) :
    val_main_v8 (F := Ideal) x0 x2 (ix3 q i h) = unit3 x0 x2 q i h := by
  have e : idx_main_v7 (ix3 q i h) = ix3 q i (0 : Fin 1) :=
    funext fun a => Fin.ext (by match a with | ⟨0, _⟩ => rfl | ⟨1, _⟩ => rfl | ⟨2, _⟩ => rfl)
  rw [val_main_v8_apply, val_main_v7_apply, e, v6_at, v0_at, Ideal.hostDivf_def]
  rfl

/-! ## The document side: stages 9 to 17 -/

/-- The second contraction at (p, j, h) is the projection of token (p, j) onto weight row h. -/
theorem v9_at (x1 : X1) (x2 : X2) (p : Fin 64) (j : Fin 512) (h : Fin 128) :
    val_main_v9 (F := Ideal) x1 x2 (ix3 p j h) = proj3 x1 x2 p j h := by
  rw [val_main_v9_apply]
  unfold proj3
  refine Finset.sum_congr rfl fun k _ => ?_
  have el : lidx_main_v9 (ix3 p j h) k = ix3 p j k :=
    funext fun a => Fin.ext (by match a with | ⟨0, _⟩ => rfl | ⟨1, _⟩ => rfl | ⟨2, _⟩ => rfl)
  have er : ridx_main_v9 (ix3 p j h) k = ix2 h k :=
    funext fun a => Fin.ext (by match a with | ⟨0, _⟩ => rfl | ⟨1, _⟩ => rfl)
  rw [el, er]

/-- The sum of squares at (p, j). -/
theorem v11_at (x1 : X1) (x2 : X2) (p : Fin 64) (j : Fin 512) :
    val_main_v11 (F := Ideal) x1 x2 (ix2 p j) = ∑ h : Fin 128, proj3 x1 x2 p j h * proj3 x1 x2 p j h := by
  rw [val_main_v11_apply, val_main_cst_1_apply, Ideal.ofBits_def, Ideal.ofBits_zero_f32, zero_add]
  refine Finset.sum_congr rfl fun h _ => ?_
  have e : idx_main_v11 (ix2 p j) h = ix3 p j h :=
    funext fun a => Fin.ext (by match a with | ⟨0, _⟩ => rfl | ⟨1, _⟩ => rfl | ⟨2, _⟩ => rfl)
  rw [e, val_main_v10_apply, Ideal.mulf_def, v9_at]

/-- The floored norm at (p, j), kept as a unit last axis. -/
theorem v15_at (x1 : X1) (x2 : X2) (p : Fin 64) (j : Fin 512) :
    val_main_v15 (F := Ideal) x1 x2 (ix3 p j (0 : Fin 1))
      = max (Ideal.sqrt (∑ h : Fin 128, proj3 x1 x2 p j h * proj3 x1 x2 p j h)) floorEps := by
  have e : idx_main_v12 (ix3 p j (0 : Fin 1)) = ix2 p j :=
    funext fun a => Fin.ext (by match a with | ⟨0, _⟩ => rfl | ⟨1, _⟩ => rfl)
  rw [val_main_v15_apply, val_main_v13_apply, val_main_v12_apply, e, v11_at, val_main_v14_apply, val_main_cst_2_apply,
    Ideal.maximumf_def, Ideal.hostUnary_sqrt_def, Ideal.ofBits_def]

/-- The scaled projection of the document tokens: stage 17 at (p, j, h). -/
theorem v17_at (x1 : X1) (x2 : X2) (p : Fin 64) (j : Fin 512) (h : Fin 128) :
    val_main_v17 (F := Ideal) x1 x2 (ix3 p j h) = unit3 x1 x2 p j h := by
  have e : idx_main_v16 (ix3 p j h) = ix3 p j (0 : Fin 1) :=
    funext fun a => Fin.ext (by match a with | ⟨0, _⟩ => rfl | ⟨1, _⟩ => rfl | ⟨2, _⟩ => rfl)
  rw [val_main_v17_apply, val_main_v16_apply, e, v15_at, v9_at, Ideal.hostDivf_def]
  rfl

/-! ## The pairwise stages: 18 to 21 -/

/-- The inner product of document token (p, j) with query token (q, i); the program has the document factor first. -/
theorem v18_at (x0 : X0) (x1 : X1) (x2 : X2) (p : Fin 64) (j : Fin 512) (q : Fin 64) (i : Fin 32) :
    val_main_v18 (F := Ideal) x0 x1 x2 (ix4 p j q i) = ∑ h : Fin 128, unit3 x0 x2 q i h * unit3 x1 x2 p j h := by
  rw [val_main_v18_apply]
  refine Finset.sum_congr rfl fun h _ => ?_
  have el : lidx_main_v18 (ix4 p j q i) h = ix3 p j h :=
    funext fun a => Fin.ext (by match a with | ⟨0, _⟩ => rfl | ⟨1, _⟩ => rfl | ⟨2, _⟩ => rfl)
  have er : ridx_main_v18 (ix4 p j q i) h = ix3 q i h :=
    funext fun a => Fin.ext (by match a with | ⟨0, _⟩ => rfl | ⟨1, _⟩ => rfl | ⟨2, _⟩ => rfl)
  rw [el, er, v17_at, v8_at, mul_comm]

/-- The transpose renames (p, j, q, i) to (q, p, i, j). -/
theorem v19_at (x0 : X0) (x1 : X1) (x2 : X2) (q p : Fin 64) (i : Fin 32) (j : Fin 512) :
    val_main_v19 (F := Ideal) x0 x1 x2 (ix4 q p i j) = ∑ h : Fin 128, unit3 x0 x2 q i h * unit3 x1 x2 p j h := by
  have e : idx_main_v19 (ix4 q p i j) = ix4 p j q i :=
    funext fun a => Fin.ext (by match a with | ⟨0, _⟩ => rfl | ⟨1, _⟩ => rfl | ⟨2, _⟩ => rfl | ⟨3, _⟩ => rfl)
  rw [val_main_v19_apply, e, v18_at]

/-- The maximum over the document tokens: the fold of max from the word of minus infinity over the 512 coordinates. -/
theorem v20_at (x0 : X0) (x1 : X1) (x2 : X2) (q p : Fin 64) (i : Fin 32) :
    val_main_v20 (F := Ideal) x0 x1 x2 (ix3 q p i)
      = (Finset.univ : Finset (Fin 512)).fold max negInf
          (fun j => ∑ h : Fin 128, unit3 x0 x2 q i h * unit3 x1 x2 p j h) := by
  have hr : S64x64x32x512.Reduces [3] S64x64x32 := by decide
  unfold val_main_v20
  rw [Host.reduce_eq_fold_single (f := FloatOps.maximumf) _ _ Facts₀.reducesTo_S64x64x32x512_S64x64x32_d3 hr Facts₀.h_S_]
  have ef : ((val_main_v19 (F := Ideal) x0 x1 x2) ∘ hr.lift (ix3 q p i))
      = fun j : Fin 512 => ∑ h : Fin 128, unit3 x0 x2 q i h * unit3 x1 x2 p j h := by
    refine funext fun (j : Fin 512) => ?_
    have e : hr.lift (ix3 q p i) j = ix4 q p i j :=
      funext fun a => Fin.ext (by match a with | ⟨0, _⟩ => rfl | ⟨1, _⟩ => rfl | ⟨2, _⟩ => rfl | ⟨3, _⟩ => rfl)
    show val_main_v19 (F := Ideal) x0 x1 x2 (hr.lift (ix3 q p i) j) = _
    rw [e]
    exact v19_at x0 x1 x2 q p i j
  rw [ef]
  rfl

/-- The reference's result is the specification's score array. -/
theorem ref_eq (x0 : (⟨Cert.ReferenceIdeal.S64x32x768, .f32⟩ : BufTy).Contents (Elt Ideal))
    (x1 : (⟨Cert.ReferenceIdeal.S64x512x768, .f32⟩ : BufTy).Contents (Elt Ideal))
    (x2 : (⟨Cert.ReferenceIdeal.S128x768, .f32⟩ : BufTy).Contents (Elt Ideal)) :
    Cert.ReferenceIdeal.Read.val_main_v21 (F := Ideal) x0 x1 x2 = Cert.MaxSim.scores x0 x1 x2 := by
  funext j
  rw [val_main_v21_apply, val_main_cst_4_apply, Ideal.ofBits_def, Ideal.ofBits_zero_f32, zero_add]
  unfold scores score
  refine Finset.sum_congr rfl fun i _ => ?_
  have e : idx_main_v21 j i = ix3 (j 0) (j 1) i :=
    funext fun a => Fin.ext (by match a with | ⟨0, _⟩ => rfl | ⟨1, _⟩ => rfl | ⟨2, _⟩ => rfl)
  rw [e]
  exact v20_at x0 x1 x2 (j 0) (j 1) i

end Cert.ReferenceIdeal.RefScores

end
-- ==== Proof.lean ====
/-
  The certificate: a late-interaction scoring kernel against its array-language reference, over the extended reals.

  Both programs project every token's hidden vector onto the 128 rows of the weight, scale the projection to unit
  length with a floor under the norm, and score query q against document p by summing, over the query's 32 tokens,
  the largest inner product with the document's 512 tokens (Proof/Spec.lean states this as one function, `scores`).
  The kernel does it in three tiled regions over flat rows with host reshapes between them and a final transpose; the
  reference with one contraction per step over the three-axis arrays. Read on the extended reals a change of float
  format is the identity and every sum is exact, so the two results are the same function of the inputs entry by
  entry: the only differences are the numbering of rows (row b·L + l of a reshaped array is token (b, l)), the order
  of the two factors in the inner products, and a leading exact zero in the reference's sums. No law that needs
  finite inputs is used.

  The three frames: the two kernels' are the generated frame certificates; the reference's is its generated run with
  the result dropped. The idealization rewrote no operation, so what it preserves is trivial. The value claim pairs
  the kernel's run with the result named (Proof/KRun.lean, Proof/KValue.lean over the per-region arrays of
  Proof/Rows0.lean, Proof/Rows1.lean, Proof/Pairs.lean and the store payloads read at an index in
  Proof/Payloads.lean) with the reference's generated run read at an index (Proof/RefScores.lean).
-/
import proofs.«150726_j1288490189594_1_alg».proof.Defs
import proofs.«150726_j1288490189594_1_alg».proof.Proof.Gen.Kernel
import proofs.«150726_j1288490189594_1_alg».proof.Proof.Gen.Kernel.Skeleton
import proofs.«150726_j1288490189594_1_alg».proof.Proof.Gen.Kernel.Launch
import proofs.«150726_j1288490189594_1_alg».proof.Proof.Gen.Kernel.Points
import proofs.«150726_j1288490189594_1_alg».proof.Proof.Gen.Kernel.Frame
import proofs.«150726_j1288490189594_1_alg».proof.Proof.Gen.KernelIdeal
import proofs.«150726_j1288490189594_1_alg».proof.Proof.Gen.KernelIdeal.Skeleton
import proofs.«150726_j1288490189594_1_alg».proof.Proof.Gen.KernelIdeal.Launch
import proofs.«150726_j1288490189594_1_alg».proof.Proof.Gen.KernelIdeal.Points
import proofs.«150726_j1288490189594_1_alg».proof.Proof.Gen.KernelIdeal.Frame
import proofs.«150726_j1288490189594_1_alg».proof.Proof.Gen.ReferenceIdeal
import proofs.«150726_j1288490189594_1_alg».proof.Proof.Gen.ReferenceIdeal.Run
import proofs.«150726_j1288490189594_1_alg».proof.Proof.Gen.ReferenceIdeal.Read
import proofs.«150726_j1288490189594_1_alg».proof.Proof.Gen.Pre_finite_inputs
import proofs.«150726_j1288490189594_1_alg».proof.Proof.KValue
import proofs.«150726_j1288490189594_1_alg».proof.Proof.RefScores
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the scores of the (agreeing) inputs in their result arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefScores.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
